-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32768x512 : Shape := ⟨3, ![8, 32768, 512]⟩
abbrev S256x512 : Shape := ⟨2, ![256, 512]⟩
abbrev S_ : Shape := ⟨0, ![]⟩

class Facts : Prop where
  bcast_S_S8x32768x512 : S_.BroadcastsInDim S8x32768x512 (![] : Fin 0 → Fin S8x32768x512.rank)
  reducesTo_S8x32768x512_S_d0_1_2 : S8x32768x512.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S8x32768x512 .f32) (main_arg1 : FVec F S256x512 .f32) : IVec S_ 1 :=
  let main_v0 : FVec F S8x32768x512 .f32 := Host.absf main_arg0
  let main_cst : FVec F S_ .f32 := constant S_ .f32 0x7F800000#32
  let main_v1 : FVec F S8x32768x512 .f32 := broadcastInDim S8x32768x512 ![] bcast_S_S8x32768x512 main_cst
  let main_v2 : IVec S8x32768x512 1 := cmpf .olt main_v0 main_v1
  let main_c : IVec S_ 1 := constantI S_ 1 1#1
  let main_v3 : IVec S_ 1 := (fun x v => Host.reduce IntOp.andi x v reducesTo_S8x32768x512_S_d0_1_2 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  main_v8
-- ==== Kernel.lean ====
abbrev S8x32768x512 : Shape := ⟨3, ![8, 32768, 512]⟩
abbrev S256x512 : Shape := ⟨2, ![256, 512]⟩
abbrev S_ : Shape := ⟨0, ![]⟩
abbrev S8x256x512 : Shape := ⟨3, ![8, 256, 512]⟩
abbrev S1x2048x512 : Shape := ⟨3, ![1, 2048, 512]⟩
abbrev S1x256x512 : Shape := ⟨3, ![1, 256, 512]⟩
abbrev S256x128 : Shape := ⟨2, ![256, 128]⟩
abbrev S2048x512 : Shape := ⟨2, ![2048, 512]⟩
abbrev S256x2048 : Shape := ⟨2, ![256, 2048]⟩
abbrev S256x1 : Shape := ⟨2, ![256, 1]⟩
abbrev S256 : Shape := ⟨1, ![256]⟩

abbrev nBuf : Space → Nat
  | .hbm => 6
  | .vmem => 8
  | .smem => 0
  | _ => 0

abbrev bufTy : (tb : Table) → Fin (tcTables nBuf tb) → BufTy
  | .hbm, ⟨0, _⟩ => ⟨S8x32768x512, .f32⟩
  | .hbm, ⟨1, _⟩ => ⟨S256x512, .f32⟩
  | .hbm, ⟨2, _⟩ => ⟨S_, .f32⟩
  | .hbm, ⟨3, _⟩ => ⟨S256x512, .f32⟩
  | .hbm, ⟨4, _⟩ => ⟨S256x512, .f32⟩
  | .hbm, ⟨5, _⟩ => ⟨S8x256x512, .f32⟩
  | .local _ .vmem, ⟨0, _⟩ => ⟨S256x512, .f32⟩
  | .local _ .vmem, ⟨1, _⟩ => ⟨S1x2048x512, .f32⟩
  | .local _ .vmem, ⟨2, _⟩ => ⟨S1x2048x512, .f32⟩
  | .local _ .vmem, ⟨3, _⟩ => ⟨S1x256x512, .f32⟩
  | .local _ .vmem, ⟨4, _⟩ => ⟨S1x256x512, .f32⟩
  | .local _ .vmem, ⟨5, _⟩ => ⟨S256x512, .f32⟩
  | .local _ .vmem, ⟨6, _⟩ => ⟨S256x128, .f32⟩
  | .local _ .vmem, ⟨7, _⟩ => ⟨S256x128, .f32⟩
  | _, _ => ⟨S8x32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v36 : BitVec 1 := Scalar.cmpi .eq arg1 c15_i32
  let v37 : BitVec 32 := Scalar.extui v36
  let c0_i32_20 : BitVec 32 := 0#32
  let v38 : BitVec 1 := Scalar.cmpi .ne v37 c0_i32_20
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S256x512 : S_.BroadcastsInDim S256x512 (![] : Fin 0 → Fin S256x512.rank)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S256x128_S256x1_0_0 : ∀ a, (![0, 0] : Fin 2 → Nat) a + S256x1.size a ≤ S256x128.size a
  h_S256x1 : 0 < S256x1.numel
  reduces_S256x2048_S256 : S256x2048.Reduces [1] S256
  shapeCasts_S256_S256x1 : S256.ShapeCasts S256x1
  broadcasts_S256x1_S256x2048 : S256x1.Broadcasts S256x2048
  shapeCasts_S256x1_S256x1 : S256x1.ShapeCasts S256x1
  broadcasts_S256x1_S256x512 : S256x1.Broadcasts S256x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  dot_S256x512_S2048x512_S256x2048_1_1_0_0_n_n_wf : DotDims.WF S256x512 S2048x512 S256x2048 [1] [1] [0] [0] [] []
  dot_S256x2048_S2048x512_S256x512_1_0_0_1_n_n_wf : DotDims.WF S256x2048 S2048x512 S256x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S256x512.size a
  hwx0_0 : ∀ i : grid0.Coords, EltTy.bits .f32 = 32 ∨ (Rect.block (s := S256x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x32768x512.size a
  hwx0_1 : ∀ i : grid0.Coords, EltTy.bits .f32 = 32 ∨ (Rect.block (s := S8x32768x512) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x512.size a ≤ S8x256x512.size a
  hwx0_2 : ∀ i : grid0.Coords, EltTy.bits .f32 = 32 ∨ (Rect.block (s := S8x256x512) S1x256x512.size (cc0_transform_2 i) (hinb0_2 i)).WholeWords (EltTy.packing .f32)

variable [Facts₀]

def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

abbrev win0_0 : Pipeline.Window sig grid0 :=
  Pipeline.Window.ofSpec (Memref.whole main_v1) S256x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x32768x512 : Shape := ⟨3, ![8, 32768, 512]⟩
abbrev S256x512 : Shape := ⟨2, ![256, 512]⟩
abbrev S8x32768x256 : Shape := ⟨3, ![8, 32768, 256]⟩
abbrev S8x256x32768 : Shape := ⟨3, ![8, 256, 32768]⟩
abbrev S_ : Shape := ⟨0, ![]⟩
abbrev S8x256 : Shape := ⟨2, ![8, 256]⟩
abbrev S8x256x1 : Shape := ⟨3, ![8, 256, 1]⟩
abbrev S8x256x512 : Shape := ⟨3, ![8, 256, 512]⟩

abbrev nBuf : Space → Nat
  | .hbm => 22
  | .vmem => 0
  | .smem => 0
  | _ => 0

abbrev bufTy : (tb : Table) → Fin (tcTables nBuf tb) → BufTy
  | .hbm, ⟨0, _⟩ => ⟨S8x32768x512, .f32⟩
  | .hbm, ⟨1, _⟩ => ⟨S256x512, .f32⟩
  | .hbm, ⟨2, _⟩ => ⟨S8x32768x256, .f32⟩
  | .hbm, ⟨3, _⟩ => ⟨S8x256x32768, .f32⟩
  | .hbm, ⟨4, _⟩ => ⟨S_, .f32⟩
  | .hbm, ⟨5, _⟩ => ⟨S8x256x32768, .f32⟩
  | .hbm, ⟨6, _⟩ => ⟨S8x256x32768, .f32⟩
  | .hbm, ⟨7, _⟩ => ⟨S_, .f32⟩
  | .hbm, ⟨8, _⟩ => ⟨S8x256, .f32⟩
  | .hbm, ⟨9, _⟩ => ⟨S_, .f32⟩
  | .hbm, ⟨10, _⟩ => ⟨S8x256, .f32⟩
  | .hbm, ⟨11, _⟩ => ⟨S8x256, .f32⟩
  | .hbm, ⟨12, _⟩ => ⟨S8x256x1, .f32⟩
  | .hbm, ⟨13, _⟩ => ⟨S8x256x32768, .f32⟩
  | .hbm, ⟨14, _⟩ => ⟨S8x256x32768, .f32⟩
  | .hbm, ⟨15, _⟩ => ⟨S8x256x32768, .f32⟩
  | .hbm, ⟨16, _⟩ => ⟨S_, .f32⟩
  | .hbm, ⟨17, _⟩ => ⟨S8x256, .f32⟩
  | .hbm, ⟨18, _⟩ => ⟨S8x256x1, .f32⟩
  | .hbm, ⟨19, _⟩ => ⟨S8x256x32768, .f32⟩
  | .hbm, ⟨20, _⟩ => ⟨S8x256x32768, .f32⟩
  | .hbm, ⟨21, _⟩ => ⟨S8x256x512, .f32⟩
  | _, _ => ⟨S8x32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S8x32768x256_S8x256x32768_0_2_1 : S8x32768x256.Transposes [0, 2, 1] S8x256x32768
  bcast_S_S8x256x32768 : S_.BroadcastsInDim S8x256x32768 (![] : Fin 0 → Fin S8x256x32768.rank)
  reducesTo_S8x256x32768_S8x256_d2 : S8x256x32768.ReducesTo [2] S8x256
  h_S_ : 0 < S_.numel
  bcast_S_S8x256 : S_.BroadcastsInDim S8x256 (![] : Fin 0 → Fin S8x256.rank)
  bcast_S8x256_S8x256x1_0_1 : S8x256.BroadcastsInDim S8x256x1 (![0, 1] : Fin 2 → Fin S8x256x1.rank)
  bcast_S8x256x1_S8x256x32768_0_1_2 : S8x256x1.BroadcastsInDim S8x256x32768 (![0, 1, 2] : Fin 3 → Fin S8x256x32768.rank)
  dot_S8x32768x512_S256x512_S8x32768x256_2_1_01_0_n_n_wf : DotDims.WF S8x32768x512 S256x512 S8x32768x256 [2] [1] [0, 1] [0] [] []
  dot_S8x256x32768_S8x32768x512_S8x256x512_2_1_1_2_0_0_wf : DotDims.WF S8x256x32768 S8x32768x512 S8x256x512 [2] [1] [1] [2] [0] [0]

variable [Facts₀]

def dot_S8x32768x512_S256x512_S8x32768x256_2_1_01_0_n_n : DotDims S8x32768x512 S256x512 S8x32768x256 where
  lhsContracting := [2]
  rhsContracting := [1]
  lhsNonContracting := [0, 1]
  rhsNonContracting := [0]
  lhsBatch := []
  rhsBatch := []
  wf := dot_S8x32768x512_S256x512_S8x32768x256_2_1_01_0_n_n_wf
def dot_S8x256x32768_S8x32768x512_S8x256x512_2_1_1_2_0_0 : DotDims S8x256x32768 S8x32768x512 S8x256x512 where
  lhsContracting := [2]
  rhsContracting := [1]
  lhsNonContracting := [1]
  rhsNonContracting := [2]
  lhsBatch := [0]
  rhsBatch := [0]
  wf := dot_S8x256x32768_S8x32768x512_S8x256x512_2_1_1_2_0_0_wf

class Facts : Prop extends Facts₀ where

variable [Facts]
-- ==== Proof.Pieces.lean ====
/-
  What each case of the body leaves, as the body's arithmetic on the point's inputs.

  The body has three cases: the first chunk of a batch (it resets the running maximum, the weight sum and the
  accumulator, then updates them), a middle chunk (it updates them), and the last chunk (it updates them and emits
  accumulator / weight sum). Only column 0 of the two [256,128] buffers is ever read or updated; `col0` names that
  column as a [256,1] vector. Each lemma says that what a case leaves in a buffer (or in its column 0) is the matching
  payload — the update's arithmetic as one pure term — applied to the point's two input blocks and to what the
  buffers held before (for the first chunk: to the reset values).
-/
import proofs.«115058_g30648886624911_feedfinal_492_2_alg».proof.Proof.Gen.KernelIdeal.Frame
import Idealize.ShloMosaic.Lib.Pipeline.Value
import Idealize.ShloMosaic.Lib.WritesUnit
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen Idealize.ShloMosaic.ValueIdx Facts₀ Facts

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Column 0 of a [256,128] buffer, as a [256,1] vector: what the body's column loads read. -/
abbrev col0 (xs : Vec F S256x128 .f32) : Vec F S256x1 .f32 :=
  View.ld xs (Rect.unit (s := S256x128) ![0, 0] S256x1.size Facts₀.inb_S256x128_S256x1_0_0)

/-- Entry (s, 0) of the column vector is entry (s, 0) of the buffer. -/
theorem col0_apply (xs : Vec F S256x128 .f32) (s : Fin 256) :
    col0 xs (ix2 s (0 : Fin 1)) = xs (ix2 s (0 : Fin 128)) := by
  show xs ((Rect.unit (s := S256x128) ![0, 0] S256x1.size Facts₀.inb_S256x128_S256x1_0_0).emb (ix2 s (0 : Fin 1))) = _
  refine congrArg xs (funext fun a => Fin.ext ?_)
  match a with
  | ⟨0, _⟩ => show 0 + 1 * s.val = s.val; omega
  | ⟨1, _⟩ => rfl

/-- Index (s, 0) of the buffer is index (s, 0) of the column rectangle. -/
theorem emb_col (s : Fin 256) :
    (Rect.unit (s := S256x128) ![0, 0] S256x1.size Facts₀.inb_S256x128_S256x1_0_0).emb (ix2 s (0 : Fin 1)) = (ix2 s (0 : Fin 128) : S256x128.Idx) := by
  refine funext fun a => Fin.ext ?_
  match a with
  | ⟨0, _⟩ => show 0 + 1 * s.val = s.val; omega
  | ⟨1, _⟩ => rfl

variable (c : Dev nD) (i : grid0.Coords) (arg2 : Memref sig .tc .vmem S256x512 .f32) (harg2 : arg2.IsWhole) (arg3 : Memref sig .tc .vmem S1x2048x512 .f32) (harg3 : arg3.IsWhole) (arg4 : Memref sig .tc .vmem S1x256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S256x128 .f32) (harg7 : arg7.IsWhole)

/-! ## A middle chunk -/

section Middle
variable (hc0 : ¬cond0_0 i) (hc1 : ¬cond0_1 i) (x0 : Vec F S256x512 .f32) (x1 : Vec F S1x2048x512 .f32) (xs0 : Vec F S256x512 .f32) (xs1 : Vec F S256x128 .f32) (xs2 : Vec F S256x128 .f32)

/-- The accumulator after a middle chunk. -/
theorem acc_B : sout0_B_0 c i arg2 harg2 arg3 harg3 arg4 harg4 arg5 harg5 arg6 harg6 arg7 harg7 hc0 hc1 x0 x1 xs0 xs1 xs2 = k0_pay1 (k0_pay13 x0 x1 (col0 xs1) xs0) := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_unit_zero (S := S256x512) hz2]
  simp only [View.readAt_eq_ld, harg2.read_unread, harg3.read_unread, harg5.read_unread, harg6.read_unread, harg7.read_unread, View.ld_unit_zero (S := S256x512) hz2, View.ld_unit_zero (S := S1x2048x512) hz3]

/-- Column 0 of the running maximum after a middle chunk. -/
theorem max_B (s : Fin 256) :
    sout0_B_1 c i arg2 harg2 arg3 harg3 arg4 harg4 arg5 harg5 arg6 harg6 arg7 harg7 hc0 hc1 x0 x1 xs0 xs1 xs2 (ix2 s (0 : Fin 128)) = k0_pay12 x0 x1 (col0 xs1) (ix2 s (0 : Fin 1)) := by
  unfold sout0_B_1 kernelRun0_B
  dsimp only
  sl_unfold_words
  rw [← emb_col s, View.read_writes_cons_emb]
  simp only [View.readAt_eq_ld, harg2.read_unread, harg3.read_unread, harg5.read_unread, harg6.read_unread, harg7.read_unread, View.ld_unit_zero (S := S256x512) hz2, View.ld_unit_zero (S := S1x2048x512) hz3]

/-- Column 0 of the weight sum after a middle chunk. -/
theorem sum_B (s : Fin 256) :
    sout0_B_2 c i arg2 harg2 arg3 harg3 arg4 harg4 arg5 harg5 arg6 harg6 arg7 harg7 hc0 hc1 x0 x1 xs0 xs1 xs2 (ix2 s (0 : Fin 128)) = k0_pay11 x0 x1 (col0 xs1) (col0 xs2) (ix2 s (0 : Fin 1)) := by
  unfold sout0_B_2 kernelRun0_B
  dsimp only
  sl_unfold_words
  rw [← emb_col s, View.read_writes_cons_emb]
  simp only [View.readAt_eq_ld, harg2.read_unread, harg3.read_unread, harg5.read_unread, harg6.read_unread, harg7.read_unread, View.ld_unit_zero (S := S256x512) hz2, View.ld_unit_zero (S := S1x2048x512) hz3]

end Middle

/-! ## The last chunk -/

section Last
variable (hc0 : ¬cond0_0 i) (hc1 : cond0_1 i) (x0 : Vec F S256x512 .f32) (x1 : Vec F S1x2048x512 .f32) (xs0 : Vec F S256x512 .f32) (xs1 : Vec F S256x128 .f32) (xs2 : Vec F S256x128 .f32)

/-- The accumulator after the last chunk. -/
theorem acc_C : sout0_C_0 c i arg2 harg2 arg3 harg3 arg4 harg4 arg5 harg5 arg6 harg6 arg7 harg7 hc0 hc1 x0 x1 xs0 xs1 xs2 = k0_pay1 (k0_pay13 x0 x1 (col0 xs1) xs0) := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  sl_unfold_words
  rw [View.canon_unit_zero (S := S256x512) hz2]
  simp only [View.readAt_eq_ld, harg2.read_unread, harg3.read_unread, harg5.read_unread, harg6.read_unread, harg7.read_unread, View.ld_unit_zero (S := S256x512) hz2, View.ld_unit_zero (S := S1x2048x512) hz3]

/-- The emitted block: the updated accumulator divided by the updated weight sum. -/
theorem out_C : out0_C_2 c i arg2 harg2 arg3 harg3 arg4 harg4 arg5 harg5 arg6 harg6 arg7 harg7 hc0 hc1 x0 x1 xs0 xs1 xs2
    = k0_pay2 (k0_pay1 (k0_pay13 x0 x1 (col0 xs1) xs0)) (k0_pay11 x0 x1 (col0 xs1) (col0 xs2)) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero (S := S1x256x512) hz3]
  rw [View.readCov_cons_toLoadRect, View.readCov_cons_toLoadRect]
  simp only [View.readAt_eq_ld, harg2.read_unread, harg3.read_unread, harg5.read_unread, harg6.read_unread, harg7.read_unread, View.ld_unit_zero (S := S256x512) hz2, View.ld_unit_zero (S := S1x2048x512) hz3]

end Last

/-! ## The first chunk -/

section First
variable (hc0 : cond0_0 i) (hc1 : ¬cond0_1 i) (x0 : Vec F S256x512 .f32) (x1 : Vec F S1x2048x512 .f32)

/-- A column load after the reset of a [256,128] buffer to `w` reads `w`'s column 0. -/
theorem readCov_reset (v : View sig .tc .vmem S256x128 .f32) (w : Vec F S256x128 .f32) :
    v.readCov [(⟨Rect.unit (s := S256x128) ![0, 0] S256x128.size Facts₀.inb_S256x128_S256x128_0_0, w⟩ : View.Piece (Elt F) S256x128 .f32)]
      (Rect.unit (s := S256x128) ![0, 0] S256x1.size Facts₀.inb_S256x128_S256x1_0_0).toLoadRect = col0 w := by
  rw [View.readCov_eq_canon_ld _ _ _ (fun y => ⟨_, List.mem_singleton_self _, View.mem_set_unit_zero hz2 Facts₀.inb_S256x128_S256x128_0_0 y⟩),
    View.canon_unit_zero (S := S256x128) hz2]

/-- The accumulator after the first chunk: the update applied to the reset values. -/
theorem acc_A : sout0_A_0 c i arg2 harg2 arg3 harg3 arg4 harg4 arg5 harg5 arg6 harg6 arg7 harg7 hc0 hc1 x0 x1 = k0_pay1 (k0_pay13 x0 x1 (col0 k0_pay3) k0_pay5) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S256x512) hz2, View.readCov_unit_zero (S := S256x512) _ hz2, readCov_reset]
  simp only [View.readAt_eq_ld, harg2.read_unread, harg3.read_unread, View.ld_unit_zero (S := S256x512) hz2, View.ld_unit_zero (S := S1x2048x512) hz3]

/-- Column 0 of the running maximum after the first chunk. -/
theorem max_A (s : Fin 256) :
    sout0_A_1 c i arg2 harg2 arg3 harg3 arg4 harg4 arg5 harg5 arg6 harg6 arg7 harg7 hc0 hc1 x0 x1 (ix2 s (0 : Fin 128)) = k0_pay12 x0 x1 (col0 k0_pay3) (ix2 s (0 : Fin 1)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [← emb_col s, View.canon_cons_emb, readCov_reset]
  simp only [View.readAt_eq_ld, harg2.read_unread, harg3.read_unread, View.ld_unit_zero (S := S256x512) hz2, View.ld_unit_zero (S := S1x2048x512) hz3]

/-- Column 0 of the weight sum after the first chunk. -/
theorem sum_A (s : Fin 256) :
    sout0_A_2 c i arg2 harg2 arg3 harg3 arg4 harg4 arg5 harg5 arg6 harg6 arg7 harg7 hc0 hc1 x0 x1 (ix2 s (0 : Fin 128)) = k0_pay11 x0 x1 (col0 k0_pay3) (col0 k0_pay4) (ix2 s (0 : Fin 1)) := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [← emb_col s, View.canon_cons_emb, readCov_reset, readCov_reset]
  simp only [View.readAt_eq_ld, harg2.read_unread, harg3.read_unread, View.ld_unit_zero (S := S256x512) hz2, View.ld_unit_zero (S := S1x2048x512) hz3]

end First

section LastScratch
variable (hc0 : ¬cond0_0 i) (hc1 : cond0_1 i) (x0 : Vec F S256x512 .f32) (x1 : Vec F S1x2048x512 .f32) (xs0 : Vec F S256x512 .f32) (xs1 : Vec F S256x128 .f32) (xs2 : Vec F S256x128 .f32)

/-- Column 0 of the running maximum after the last chunk. -/
theorem max_C (s : Fin 256) :
    sout0_C_1 c i arg2 harg2 arg3 harg3 arg4 harg4 arg5 harg5 arg6 harg6 arg7 harg7 hc0 hc1 x0 x1 xs0 xs1 xs2 (ix2 s (0 : Fin 128)) = k0_pay12 x0 x1 (col0 xs1) (ix2 s (0 : Fin 1)) := by
  unfold sout0_C_1 kernelRun0_C
  dsimp only
  sl_unfold_words
  rw [← emb_col s, View.read_writes_cons_emb]
  simp only [View.readAt_eq_ld, harg2.read_unread, harg3.read_unread, harg5.read_unread, harg6.read_unread, harg7.read_unread, View.ld_unit_zero (S := S256x512) hz2, View.ld_unit_zero (S := S1x2048x512) hz3]

/-- Column 0 of the weight sum after the last chunk. -/
theorem sum_C (s : Fin 256) :
    sout0_C_2 c i arg2 harg2 arg3 harg3 arg4 harg4 arg5 harg5 arg6 harg6 arg7 harg7 hc0 hc1 x0 x1 xs0 xs1 xs2 (ix2 s (0 : Fin 128)) = k0_pay11 x0 x1 (col0 xs1) (col0 xs2) (ix2 s (0 : Fin 1)) := by
  unfold sout0_C_2 kernelRun0_C
  dsimp only
  sl_unfold_words
  rw [← emb_col s, View.read_writes_cons_emb]
  simp only [View.readAt_eq_ld, harg2.read_unread, harg3.read_unread, harg5.read_unread, harg6.read_unread, harg7.read_unread, View.ld_unit_zero (S := S256x512) hz2, View.ld_unit_zero (S := S1x2048x512) hz3]

end LastScratch

end Cert.KernelIdeal.Pieces

end
-- ==== Proof.StreamedSoftmax.lean ====
/-
  The mathematics of a streamed softmax average, apart from any program.

  For logits `z i` and values `v i` over a finite set `S`, and any real shift `M`, put
    den S z M   = ∑ i ∈ S, exp (z i - M)          (the shifted weights' sum)
    num S z v M = ∑ i ∈ S, exp (z i - M) * v i    (the shifted weighted sum).
  Changing the shift multiplies both by the same positive factor `exp (M - M')`, so the quotient
  `num / den` does not depend on the shift: it is the softmax average `avg` of `v` under `z`.
  A streamed evaluation keeps `(M, den, num)` for the part of the row seen so far and, on a new
  disjoint part `T`, moves to a new shift `M'` by
    den (S ∪ T) M' = den S M * exp (M - M') + den T M'     (and the same for num),
  whatever the new shift is (the running maximum is one choice; exactness does not need it).
  The second half lifts this to the extended reals: on values that are real numbers the extended
  operations (sum, product, difference, exponential, maximum, quotient by a positive real) are the
  real ones, and a maximum of a real with anything below `⊤` is again a real.
-/
import Idealize.ShloMosaic.PureOps.Ideal
import Idealize.ShloMosaic.PureOps.Ideal.Laws

noncomputable section

namespace StreamedSoftmax

open Finset Idealize.ShloMosaic

variable {ι : Type*}

/-! ## Over the reals -/

/-- The sum of the weights `exp (z i - M)` over `S`. -/
def den (S : Finset ι) (z : ι → ℝ) (M : ℝ) : ℝ := ∑ i ∈ S, Real.exp (z i - M)

/-- The sum of the values weighted by `exp (z i - M)` over `S`. -/
def num (S : Finset ι) (z v : ι → ℝ) (M : ℝ) : ℝ := ∑ i ∈ S, Real.exp (z i - M) * v i

/-- The softmax average of `v` under the logits `z` over `S` (no shift). -/
def avg (S : Finset ι) (z v : ι → ℝ) : ℝ := num S z v 0 / den S z 0

theorem den_empty (z : ι → ℝ) (M : ℝ) : den (∅ : Finset ι) z M = 0 := by simp [den]
theorem num_empty (z v : ι → ℝ) (M : ℝ) : num (∅ : Finset ι) z v M = 0 := by simp [num]

/-- Moving the shift from `M` to `M'` multiplies the weights' sum by `exp (M - M')`. -/
theorem den_shift (S : Finset ι) (z : ι → ℝ) (M M' : ℝ) :
    den S z M * Real.exp (M - M') = den S z M' := by
  unfold den
  rw [Finset.sum_mul]
  refine Finset.sum_congr rfl fun i _ => ?_
  rw [← Real.exp_add]
  congr 1; ring

/-- … and the weighted sum by the same factor. -/
theorem num_shift (S : Finset ι) (z v : ι → ℝ) (M M' : ℝ) :
    num S z v M * Real.exp (M - M') = num S z v M' := by
  unfold num
  rw [Finset.sum_mul]
  refine Finset.sum_congr rfl fun i _ => ?_
  rw [mul_right_comm, ← Real.exp_add]
  congr 2; ring

theorem den_pos {S : Finset ι} (hS : S.Nonempty) (z : ι → ℝ) (M : ℝ) : 0 < den S z M :=
  Finset.sum_pos (fun _ _ => Real.exp_pos _) hS

/-- The quotient of the two sums is the same at every shift: the softmax average. -/
theorem num_div_den (S : Finset ι) (z v : ι → ℝ) (M : ℝ) : num S z v M / den S z M = avg S z v := by
  unfold avg
  rw [← num_shift S z v M 0, ← den_shift S z M 0]
  exact (mul_div_mul_right _ _ (Real.exp_pos _).ne').symm

/-- One streamed step on the weights' sum: the part seen so far re-shifted, plus the new part. -/
theorem den_union [DecidableEq ι] {S T : Finset ι} (h : Disjoint S T) (z : ι → ℝ) (M M' : ℝ) :
    den S z M * Real.exp (M - M') + den T z M' = den (S ∪ T) z M' := by
  rw [den_shift]; unfold den; rw [Finset.sum_union h]

/-- One streamed step on the weighted sum. -/
theorem num_union [DecidableEq ι] {S T : Finset ι} (h : Disjoint S T) (z v : ι → ℝ) (M M' : ℝ) :
    num S z v M * Real.exp (M - M') + num T z v M' = num (S ∪ T) z v M' := by
  rw [num_shift]; unfold num; rw [Finset.sum_union h]

/-- The two-pass form — each weight divided by the weights' sum first, then the weighted sum — is the
    same average. -/
theorem sum_normalized (S : Finset ι) (z v : ι → ℝ) (M : ℝ) :
    ∑ i ∈ S, Real.exp (z i - M) / den S z M * v i = avg S z v := by
  rw [← num_div_den S z v M]
  unfold num
  rw [Finset.sum_div]
  exact Finset.sum_congr rfl fun i _ => div_mul_eq_mul_div _ _ _

/-! ## On extended reals that are real numbers -/

/-- A finite sum of real numbers, taken in the extended reals, is the real sum. -/
theorem coe_sum (S : Finset ι) (f : ι → ℝ) : (∑ i ∈ S, (f i : EReal)) = ((∑ i ∈ S, f i : ℝ) : EReal) := by
  classical
  induction S using Finset.induction_on with
  | empty => simp
  | insert a s ha ih => rw [Finset.sum_insert ha, Finset.sum_insert ha, ih, EReal.coe_add]

/-- The maximum of a real number with an extended real below `⊤` is a real number, not below the first. -/
theorem max_coe_real (M : ℝ) {y : EReal} (hy : y ≠ ⊤) : ∃ M' : ℝ, max (M : EReal) y = (M' : EReal) := by
  rcases le_total y (M : EReal) with h | h
  · exact ⟨M, max_eq_left h⟩
  · rw [max_eq_right h]
    have hb : y ≠ ⊥ := fun e => by rw [e] at h; exact absurd h (not_le.mpr (EReal.bot_lt_coe M))
    exact ⟨y.toReal, (EReal.coe_toReal hy hb).symm⟩

/-- A fold of `max` over real numbers from a start below `⊤` stays below `⊤`. -/
theorem fold_max_ne_top {κ : Type*} (S : Finset κ) (f : κ → ℝ) {b : EReal} (hb : b ≠ ⊤) :
    S.fold max b (fun k => (f k : EReal)) ≠ ⊤ :=
  ne_of_lt ((Finset.fold_max_lt ⊤).mpr ⟨lt_top_iff_ne_top.mpr hb, fun k _ => EReal.coe_lt_top _⟩)

/-- … and, over a nonempty set, is not `⊥` either: it is a real number. -/
theorem fold_max_real {κ : Type*} {S : Finset κ} (hS : S.Nonempty) (f : κ → ℝ) {b : EReal} (hb : b ≠ ⊤) :
    ∃ r : ℝ, S.fold max b (fun k => (f k : EReal)) = (r : EReal) := by
  obtain ⟨k, hk⟩ := hS
  have hlow : (f k : EReal) ≤ S.fold max b (fun k => (f k : EReal)) :=
    (Finset.le_fold_max _).mpr (Or.inr ⟨k, hk, le_rfl⟩)
  have hbot : S.fold max b (fun k => (f k : EReal)) ≠ ⊥ := fun e => by
    rw [e] at hlow; exact absurd hlow (not_le.mpr (EReal.bot_lt_coe _))
  exact ⟨_, (EReal.coe_toReal (fold_max_ne_top S f hb) hbot).symm⟩

/-- The quotient of a real by a nonzero real, as the ideal float quotient computes it. -/
theorem div_coe_coe (a : ℝ) {l : ℝ} (hl : l ≠ 0) : Ideal.div (a : EReal) (l : EReal) = ((a / l : ℝ) : EReal) := by
  rw [Ideal.div_coe hl, ← EReal.coe_mul]
  congr 1; rw [one_div, div_eq_mul_inv]

/-- An f32 word whose exponent field is not all ones denotes a real number. -/
theorem ofBits_f32_real (b : BitVec 32) (h : (b.extractLsb' 23 8).toNat ≠ 2 ^ 8 - 1) :
    ∃ r : ℝ, Ideal.ofBits .f32 b = (r : EReal) := by
  unfold Ideal.ofBits Ideal.ieee
  dsimp only
  rw [if_neg h]
  split_ifs <;> exact ⟨_, rfl⟩

end StreamedSoftmax

end
-- ==== Proof.PooledSpec.lean ====
/-
  The specification: what both programs compute, as one function of the argument arrays.

  For a batch `b`, a query `s` and a channel `c`, with `x : [8, 32768, 512]` and `q : [256, 512]` real,
    logit b s n  = (∑ c', x[b, n, c'] * q[s, c']) * scale         (scale the value of the word 0x3D3504F3)
    pooled b s c = the softmax average over the 32768 rows n of x[b, n, c] under those logits
                 = (∑ n, exp (logit b s n) * x[b, n, c]) / (∑ n, exp (logit b s n)).
  `G x q` is that function on arrays of extended reals, read at their real parts; it is what the result
  array holds when every entry of `x` and `q` is a real number (`IsReal`).
  The rows are also laid out as 16 chunks of 2048 (`row`): the streamed evaluation meets them chunk by chunk,
  and the average over all rows is the average over the pairs (chunk, offset).
-/
import Idealize.ShloMosaic.Lib.ValueIdx
import proofs.«115058_g30648886624911_feedfinal_492_2_alg».proof.Proof.StreamedSoftmax

noncomputable section

namespace PooledSpec

open Idealize.ShloMosaic Idealize.ShloMosaic.ValueIdx StreamedSoftmax

abbrev SX : Shape := ⟨3, ![8, 32768, 512]⟩
abbrev SQ : Shape := ⟨2, ![256, 512]⟩
abbrev SO : Shape := ⟨3, ![8, 256, 512]⟩

/-- Every entry of the array is a real number (neither infinity). -/
def IsReal {ι : Type} (x : ι → EReal) : Prop := ∀ i, x i = ((x i).toReal : EReal)

/-- The scale, the real number the f32 word `0x3D3504F3` denotes (the nearest f32 to 512^(-1/2)). -/
def scale : ℝ := (Ideal.ofBits .f32 0x3D3504F3#32).toReal

theorem scale_eq : Ideal.ofBits .f32 0x3D3504F3#32 = (scale : EReal) := by
  obtain ⟨r, hr⟩ := ofBits_f32_real 0x3D3504F3#32 (by decide)
  unfold scale; rw [hr, EReal.toReal_coe]

/-- The logit of query `s` against row `n` of batch `b`. -/
def logit (X : SX.Idx → ℝ) (Q : SQ.Idx → ℝ) (b : Fin 8) (s : Fin 256) (n : Fin 32768) : ℝ :=
  (∑ c : Fin 512, X (ix3 b n c) * Q (ix2 s c)) * scale

/-- The softmax average of channel `c` of batch `b`'s rows under query `s`'s logits. -/
def pooled (X : SX.Idx → ℝ) (Q : SQ.Idx → ℝ) (b : Fin 8) (s : Fin 256) (c : Fin 512) : ℝ :=
  avg Finset.univ (logit X Q b s) (fun n => X (ix3 b n c))

/-- The result array as a function of the argument arrays (read at their real parts). -/
def G (x : SX.Idx → EReal) (q : SQ.Idx → EReal) : SO.Idx → EReal := fun i =>
  ((pooled (fun j => (x j).toReal) (fun j => (q j).toReal) (i 0) (i 1) (i 2) : ℝ) : EReal)

theorem G_apply (x : SX.Idx → EReal) (q : SQ.Idx → EReal) (b : Fin 8) (s : Fin 256) (c : Fin 512) :
    G x q (ix3 b s c) = ((pooled (fun j => (x j).toReal) (fun j => (q j).toReal) b s c : ℝ) : EReal) := rfl

/-! ## The rows in 16 chunks of 2048 -/

/-- Row `2048 * j + k`: offset `k` of chunk `j`. -/
def row (p : Fin 16 × Fin 2048) : Fin 32768 := ⟨2048 * p.1.val + p.2.val, by have := p.1.isLt; have := p.2.isLt; omega⟩

theorem row_val (j : Fin 16) (k : Fin 2048) : (row (j, k)).val = 2048 * j.val + k.val := rfl

/-- The pairs (chunk, offset) are the rows. -/
def rowEquiv : Fin 16 × Fin 2048 ≃ Fin 32768 where
  toFun := row
  invFun n := (⟨n.val / 2048, by have := n.isLt; omega⟩, ⟨n.val % 2048, Nat.mod_lt _ (by norm_num)⟩)
  left_inv p := by
    obtain ⟨j, k⟩ := p
    have hj := j.isLt; have hk := k.isLt
    refine Prod.ext (Fin.ext ?_) (Fin.ext ?_)
    · show (2048 * j.val + k.val) / 2048 = j.val; omega
    · show (2048 * j.val + k.val) % 2048 = k.val; omega
  right_inv n := by
    refine Fin.ext ?_
    show 2048 * (n.val / 2048) + n.val % 2048 = n.val; omega

theorem rowEquiv_apply (p : Fin 16 × Fin 2048) : rowEquiv p = row p := rfl

/-- The average over all rows is the average over the pairs (chunk, offset). -/
theorem avg_rows (z v : Fin 32768 → ℝ) :
    avg Finset.univ z v = avg Finset.univ (fun p : Fin 16 × Fin 2048 => z (row p)) (fun p => v (row p)) := by
  unfold avg num den
  rw [← Equiv.sum_comp rowEquiv (fun n => Real.exp (z n - 0) * v n),
    ← Equiv.sum_comp rowEquiv (fun n => Real.exp (z n - 0))]
  rfl

/-- The chunks before chunk `j` (as pairs). -/
def before (j : ℕ) : Finset (Fin 16 × Fin 2048) := Finset.univ.filter fun p => p.1.val < j

/-- Chunk `j` (as pairs). -/
def chunk (j : ℕ) : Finset (Fin 16 × Fin 2048) := Finset.univ.filter fun p => p.1.val = j

theorem before_zero : before 0 = ∅ := by
  unfold before; exact Finset.filter_false_of_mem fun p _ => Nat.not_lt_zero _

theorem before_succ (j : ℕ) : before (j + 1) = before j ∪ chunk j := by
  ext p; simp only [before, chunk, Finset.mem_filter, Finset.mem_univ, true_and, Finset.mem_union]; omega

theorem before_disjoint (j : ℕ) : Disjoint (before j) (chunk j) := by
  rw [Finset.disjoint_left]; intro p hp hq
  simp only [before, chunk, Finset.mem_filter, Finset.mem_univ, true_and] at hp hq; omega

theorem before_all : before 16 = Finset.univ := by
  unfold before; exact Finset.filter_true_of_mem fun p _ => p.1.isLt

/-- A sum over chunk `j` is the sum over its 2048 offsets. -/
theorem sum_chunk (j : Fin 16) (f : Fin 16 × Fin 2048 → ℝ) : ∑ p ∈ chunk j.val, f p = ∑ k : Fin 2048, f (j, k) := by
  have : chunk j.val = (Finset.univ : Finset (Fin 2048)).map ⟨fun k => (j, k), fun a b h => (Prod.mk.inj h).2⟩ := by
    ext p
    simp only [chunk, Finset.mem_filter, Finset.mem_univ, true_and, Finset.mem_map, Function.Embedding.coeFn_mk]
    constructor
    · intro h; exact ⟨p.2, Prod.ext (Fin.ext h.symm) rfl⟩
    · rintro ⟨k, rfl⟩; rfl
  rw [this, Finset.sum_map]; rfl

end PooledSpec

end
-- ==== Proof.Blocks.lean ====
/-
  The windows' blocks, read at an index.

  The grid has 8 × 16 points; point `t` is batch `t / 16`, chunk `t % 16`. Window 0 stages the whole scaled-query array
  (the host's `q * scale`), the same block at every point; window 1 stages rows `2048 * (t % 16) + k` of batch `t / 16`
  of `x`; window 2's block is batch `t / 16` of the result. A block's coordinate is always index × size + the coordinate
  inside the block; the printed index maps are decided once over the grid.
-/
import proofs.«115058_g30648886624911_feedfinal_492_2_alg».proof.Proof.Gen.KernelIdeal.Frame
import proofs.«115058_g30648886624911_feedfinal_492_2_alg».proof.Proof.PooledSpec
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.StableHlo

namespace Cert.KernelIdeal.Blocks

open Cert.KernelIdeal Cert.KernelIdeal.Gen Idealize.ShloMosaic.ValueIdx PooledSpec

/-- The printed index maps at every grid point. -/
theorem idx_facts : ∀ t : Fin cfg0.N,
    win0_0.index t (0 : Fin 2) = 0 ∧ win0_0.index t (1 : Fin 2) = 0
    ∧ win0_1.index t (0 : Fin 3) = t.val / 16 ∧ win0_1.index t (1 : Fin 3) = t.val % 16 ∧ win0_1.index t (2 : Fin 3) = 0
    ∧ win0_2.index t (0 : Fin 3) = t.val / 16 ∧ win0_2.index t (1 : Fin 3) = 0 ∧ win0_2.index t (2 : Fin 3) = 0 :=
  (by decide +kernel : ∀ t : Fin grid0.N, _)

theorem lt_N (t : Fin cfg0.N) : t.val < 128 := lt_of_lt_of_eq t.isLt N_0

/-- The batch of point `t`. -/
def batch (t : Fin cfg0.N) : Fin 8 := ⟨t.val / 16, by have := lt_N t; omega⟩

/-- The chunk of point `t`. -/
def chunkOf (t : Fin cfg0.N) : Fin 16 := ⟨t.val % 16, Nat.mod_lt _ (by norm_num)⟩

section Generic

variable {F : FTy → Type} [FloatOps F]
variable (m : (ℓ : Loc nD τ sig) → Buf (Elt F) ℓ)

/-- Window 1's block at point `t`: rows `2048 * (t % 16) + k` of batch `t / 16` of `x`. -/
theorem xblk_apply (c : Dev nD) (t : Fin cfg0.N) (k : Fin 2048) (cc : Fin 512) :
    iblk m c 1 t (ix3 (0 : Fin 1) k cc)
      = m ((c : Thread nD τ).loc main_arg0) (ix3 (batch t) (row (chunkOf t, k)) cc) := by
  obtain ⟨-, -, e0, e1, e2, -⟩ := idx_facts t
  show V m c main_arg0 (((cfg0.win 1).blk t).view.emb (ix3 (0 : Fin 1) k cc)) = _
  rw [V_main_arg0]
  refine congrArg _ (funext fun a => Fin.ext ?_)
  match a with
  | ⟨0, _⟩ => show win0_1.index t (0 : Fin 3) * 1 + 1 * 0 = t.val / 16; omega
  | ⟨1, _⟩ => show win0_1.index t (1 : Fin 3) * 2048 + 1 * k.val = 2048 * (t.val % 16) + k.val; omega
  | ⟨2, _⟩ => show win0_1.index t (2 : Fin 3) * 512 + 1 * cc.val = cc.val; omega

/-- Window 0's block at every point is the whole scaled-query array as the region finds it. -/
theorem qblk_apply (c : Dev nD) (t : Fin cfg0.N) (s : Fin 256) (cc : Fin 512) :
    iblk m c 0 t (ix2 s cc) = V m c main_v1 (ix2 s cc) := by
  obtain ⟨e0, e1, -⟩ := idx_facts t
  show V m c main_v1 (((cfg0.win 0).blk t).view.emb (ix2 s cc)) = _
  refine congrArg _ (funext fun a => Fin.ext ?_)
  match a with
  | ⟨0, _⟩ => show win0_0.index t (0 : Fin 2) * 256 + 1 * s.val = s.val; omega
  | ⟨1, _⟩ => show win0_0.index t (1 : Fin 2) * 512 + 1 * cc.val = cc.val; omega

/-- Window 2's block at point `t`, embedded in the result array: batch `t / 16`. -/
theorem oblk_emb (t : Fin cfg0.N) (j : S1x256x512.Idx) :
    ((cfg0.win 2).blk t).view.emb j = (ix3 (batch t) (j 1) (j 2) : S8x256x512.Idx) := by
  obtain ⟨-, -, -, -, -, e0, e1, e2⟩ := idx_facts t
  refine funext fun a => Fin.ext ?_
  have h0 : (j 0).val < 1 := (j 0).isLt
  match a with
  | ⟨0, _⟩ => show win0_2.index t (0 : Fin 3) * 1 + 1 * (j 0).val = t.val / 16; omega
  | ⟨1, _⟩ => show win0_2.index t (1 : Fin 3) * 256 + 1 * (j 1).val = (j 1).val; omega
  | ⟨2, _⟩ => show win0_2.index t (2 : Fin 3) * 512 + 1 * (j 2).val = (j 2).val; omega

end Generic

/-! ## At the ideal values: the scaled query -/

variable (m : (ℓ : Loc nD τ sig) → Buf (Elt Ideal) ℓ)

/-- The argument arrays and the scaled query as the region finds it, as arrays of extended reals. -/
abbrev xarr (c : Dev nD) : FVec Ideal S8x32768x512 .f32 := m ((c : Thread nD τ).loc main_arg0)
abbrev qarr (c : Dev nD) : FVec Ideal S256x512 .f32 := m ((c : Thread nD τ).loc main_arg1)
abbrev sqarr (c : Dev nD) : FVec Ideal S256x512 .f32 := V m c main_v1

/-- The host multiplies the query array by the scale before the region. -/
theorem sqarr_eq (c : Dev nD) :
    sqarr m c = mulf (qarr m c) (broadcastInDim S256x512 ![] bcast_S_S256x512 (constant (F := Ideal) S_ .f32 0x3D3504F3#32)) := by
  dsimp only [sqarr, qarr, Gen.V, Gen.hostOps0]; after_results

/-- Entry (s, c) of the scaled query is `q[s, c] * scale`. -/
theorem scaled_apply (c : Dev nD) (s : Fin 256) (cc : Fin 512) :
    sqarr m c (ix2 s cc) = qarr m c (ix2 s cc) * Ideal.ofBits .f32 0x3D3504F3#32 := by
  rw [sqarr_eq]
  show qarr m c (ix2 s cc) * (broadcastInDim S256x512 ![] bcast_S_S256x512 (constant (F := Ideal) S_ .f32 0x3D3504F3#32)) (ix2 s cc) = _
  rw [broadcastInDim_apply _ bcast_S_S256x512 _ (ix2 s cc) ix0 (fun a => a.elim0)]
  rfl

end Cert.KernelIdeal.Blocks

end
-- ==== Proof.ChunkStep.lean ====
/-
  One chunk of the streamed softmax, as the kernel's body computes it on a row.

  The body's payloads, read at an index at the ideal values: with `z k = ∑ c, q'[s, c] * x[k, c]` the chunk's logits,
    m' = max m (max over k of z k),   α = exp (m - m'),   p k = exp (z k - m'),
    l' = l * α + ∑ k, p k,            acc'[c] = acc[c] * α + ∑ k, p k * x[k, c],
  and the emitted block is acc / l. On real-valued inputs all of these are real numbers, with the formulas read in ℝ.

  How it goes. Every payload is a composition of pointwise operations, layout operations (a cast to the same shape, a
  leading unit axis dropped or added, a vector cast to a column, a column broadcast along its rows), two row reductions
  and two products. Each is read at explicit coordinates: a pointwise operation acts on the entries; a layout operation
  reads ONE entry of its operand; the row sum is the sum over the row's 2048 columns and the row maximum the fold of
  `max` over them from `⊥` (the value of the word 0xFF800000); a product into the zero splat is the sum over its one
  contraction axis. That gives the five formulas above over the extended reals, for any inputs. On real-valued inputs
  the logits are real (finite sums of products of reals); their maximum from `⊥` is below `⊤`, so its maximum with the
  real `m` is a real `m'` — the witness —; differences of reals, their exponentials, and the finite sums and products
  of those are the real ones.
-/
import proofs.«115058_g30648886624911_feedfinal_492_2_alg».proof.Proof.Gen.KernelIdeal.Skeleton
import proofs.«115058_g30648886624911_feedfinal_492_2_alg».proof.Proof.StreamedSoftmax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ChunkStep

open Cert.KernelIdeal Cert.KernelIdeal.Gen Idealize.ShloMosaic Idealize.ShloMosaic.ValueIdx

/-! ## The exponential and the column forms of the layout operations, read at an index -/

/-- The exponential of a vector at an index is the exponential of the entry. -/
theorem vexp_apply {s : Shape} {φ : FTy} (a : FVec Ideal s φ) (i : s.Idx) : exp a i = Ideal.exp (a i) := rfl

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The small payloads -/

/-- The accumulator's store writes the updated accumulator unchanged. -/
theorem pay1_eq (v32 : FVec Ideal S256x512 .f32) : k0_pay1 v32 = v32 := by
  unfold k0_pay1
  exact shapeCast_self v32 _

/-- The emitted block at (0, s, c) is the accumulator's entry divided by the row's weight sum. -/
theorem pay2_apply (v39 : Vec Ideal S256x512 .f32) (v40 : Vec Ideal S256x1 .f32) (s : Fin 256) (c : Fin 512) :
    k0_pay2 v39 v40 (ix3 (0 : Fin 1) s c) = Ideal.div (v39 (ix2 s c)) (v40 (ix2 s (0 : Fin 1))) := by
  unfold k0_pay2
  refine (shapeCast_ab_1ab_apply _ _ (0 : Fin 1) s c).trans ?_
  rw [divf_apply]
  exact congrArg (Ideal.div (v39 (ix2 s c))) (broadcastTo_a1_ab_apply v40 _ s c)

/-- The running maximum is reset to the word 0xF149F2CA (a finite negative number). -/
theorem pay3_apply (i : S256x128.Idx) : k0_pay3 (F := Ideal) i = Ideal.ofBits .f32 0xF149F2CA#32 := by
  unfold k0_pay3
  rw [shapeCast_self]
  rfl

/-- The weight sum is reset to zero. -/
theorem pay4_apply (i : S256x128.Idx) : k0_pay4 (F := Ideal) i = 0 := by
  unfold k0_pay4
  rw [shapeCast_self]
  exact Ideal.ofBits_zero_f32

/-- The accumulator is reset to zero. -/
theorem pay5_apply (i : S256x512.Idx) : k0_pay5 (F := Ideal) i = 0 := by
  unfold k0_pay5
  rw [shapeCast_self]
  exact Ideal.ofBits_zero_f32

/-- The chunk of `x`, viewed `[2048, 512]`, reads the block at `(0, k, c)`. -/
theorem pay6_apply (x1 : Vec Ideal S1x2048x512 .f32) (k : Fin 2048) (c : Fin 512) :
    k0_pay6 x1 (ix2 k c) = x1 (ix3 (0 : Fin 1) k c) := by
  unfold k0_pay6
  exact shapeCast_1ab_ab_apply x1 _ k c

/-! ## The row reductions of a `[256, 2048]` array -/

/-- The f32 word `0xFF800000` denotes `⊥`. -/
theorem ofBits_neg_inf : Ideal.ofBits .f32 0xFF800000#32 = (⊥ : EReal) := by
  simp [Ideal.ofBits, Ideal.ieee]

/-- The row index with the column inserted is the pair (row, column). -/
theorem lift_row (h : S256x2048.Reduces [1] S256) (s : Fin 256) (k : Fin 2048) :
    h.lift (ix1 s) k = ix2 s k :=
  funext fun a => Fin.ext (by match a with | ⟨0, _⟩ => rfl | ⟨1, _⟩ => rfl)

/-- The row sum from zero, at row `s`: the sum over the row's 2048 entries. -/
theorem rowsum_apply (src : FVec Ideal S256x2048 .f32) (h : S256x2048.Reduces [1] S256) (hφ : FKind.Formats .f32)
    (hacc : (0x00000000#32 : BitVec 32) = FKind.add.neutral .f32 hφ) (s : Fin 256) :
    multiReduction .add [1] S256 src 0x00000000#32 h hφ hacc (ix1 s) = ∑ k : Fin 2048, src (ix2 s k) := by
  refine (Ideal.multiReduction_add_single src 0x00000000#32 h hφ hacc (ix1 s)).trans ?_
  show ∑ k : Fin 2048, src (h.lift (ix1 s) k) = _
  exact Finset.sum_congr rfl fun k _ => congrArg src (lift_row h s k)

/-- The row maximum from the word `0xFF800000`, at row `s`: the fold of `max` from `⊥` over the row's 2048 entries. -/
theorem rowmax_apply (src : FVec Ideal S256x2048 .f32) (h : S256x2048.Reduces [1] S256) (hφ : FKind.Formats .f32)
    (hacc : (0xFF800000#32 : BitVec 32) = FKind.maximumf.neutral .f32 hφ) (s : Fin 256) :
    multiReduction .maximumf [1] S256 src 0xFF800000#32 h hφ hacc (ix1 s)
      = (Finset.univ : Finset (Fin 2048)).fold max (⊥ : EReal) (fun k => src (ix2 s k)) := by
  refine (Ideal.multiReduction_maximumf_single src 0xFF800000#32 h hφ hacc (ix1 s)).trans ?_
  have hf : (src ∘ h.lift (ix1 s)) = fun k : Fin 2048 => src (ix2 s k) :=
    funext fun k => congrArg src (lift_row h s k)
  show (Finset.univ : Finset (Fin 2048)).fold max (Ideal.ofBits .f32 0xFF800000#32) (src ∘ h.lift (ix1 s)) = _
  rw [ofBits_neg_inf, hf]
  rfl

/-! ## The two products -/

/-! The logits' product takes queries `[256, 512]` against the chunk's rows `[2048, 512]` and contracts the channels; the
weighted sum's product takes weights `[256, 2048]` against the same rows and contracts the rows. For each, the operand
indices at an output index and a contraction position are read axis by axis, and the sum over the one-axis contraction
shape is re-indexed by that axis's coordinate. -/

theorem lhs_D1_0 (i : S256x2048.Idx) (q : dot_S256x512_S2048x512_S256x2048_1_1_0_0_n_n.contr.Idx) :
    (dot_S256x512_S2048x512_S256x2048_1_1_0_0_n_n.lhsIdx i q 0).val = (i 0).val := by
  unfold DotDims.lhsIdx
  rw [dif_neg (show ¬(0 : Fin S256x512.rank) ∈ dot_S256x512_S2048x512_S256x2048_1_1_0_0_n_n.lhsBatch by decide), dif_pos (show (0 : Fin S256x512.rank) ∈ dot_S256x512_S2048x512_S256x2048_1_1_0_0_n_n.lhsNonContracting by decide)]
  rfl
theorem lhs_D1_1 (i : S256x2048.Idx) (q : dot_S256x512_S2048x512_S256x2048_1_1_0_0_n_n.contr.Idx) :
    (dot_S256x512_S2048x512_S256x2048_1_1_0_0_n_n.lhsIdx i q 1).val = (q ⟨0, by decide⟩).val :=
  dot_S256x512_S2048x512_S256x2048_1_1_0_0_n_n.lhsIdx_val_of_single rfl i q
theorem rhs_D1_0 (i : S256x2048.Idx) (q : dot_S256x512_S2048x512_S256x2048_1_1_0_0_n_n.contr.Idx) :
    (dot_S256x512_S2048x512_S256x2048_1_1_0_0_n_n.rhsIdx i q 0).val = (i 1).val := by
  unfold DotDims.rhsIdx
  rw [dif_neg (show ¬(0 : Fin S2048x512.rank) ∈ dot_S256x512_S2048x512_S256x2048_1_1_0_0_n_n.rhsBatch by decide), dif_pos (show (0 : Fin S2048x512.rank) ∈ dot_S256x512_S2048x512_S256x2048_1_1_0_0_n_n.rhsNonContracting by decide)]
  rfl
theorem rhs_D1_1 (i : S256x2048.Idx) (q : dot_S256x512_S2048x512_S256x2048_1_1_0_0_n_n.contr.Idx) :
    (dot_S256x512_S2048x512_S256x2048_1_1_0_0_n_n.rhsIdx i q 1).val = (q ⟨0, by decide⟩).val :=
  dot_S256x512_S2048x512_S256x2048_1_1_0_0_n_n.rhsIdx_val_of_single rfl i q

/-- The first product at `(s, k)`: the sum over the channels of query row `s` times chunk row `k`. -/
theorem matmul_D1_apply (a : FVec Ideal S256x512 .f32) (b : FVec Ideal S2048x512 .f32) (s : Fin 256) (k : Fin 2048) :
    matmul dot_S256x512_S2048x512_S256x2048_1_1_0_0_n_n none a b (constant S256x2048 .f32 0x00000000#32) (ix2 s k)
      = ∑ c : Fin 512, a (ix2 s c) * b (ix2 k c) := by
  simp only [matmul]
  rw [Ideal.matmul_constant_zero_apply, ← Equiv.sum_comp (contrEquiv1 dot_S256x512_S2048x512_S256x2048_1_1_0_0_n_n 512 rfl rfl).symm]
  refine Finset.sum_congr rfl fun c _ => ?_
  have hk := contrEquiv1_symm_val dot_S256x512_S2048x512_S256x2048_1_1_0_0_n_n 512 rfl rfl c
  have el : dot_S256x512_S2048x512_S256x2048_1_1_0_0_n_n.lhsIdx (ix2 s k) ((contrEquiv1 dot_S256x512_S2048x512_S256x2048_1_1_0_0_n_n 512 rfl rfl).symm c) = ix2 s c := funext fun ax => Fin.ext (by
    match ax with
    | ⟨0, _⟩ => exact lhs_D1_0 _ _
    | ⟨1, _⟩ => exact (lhs_D1_1 _ _).trans hk)
  have er : dot_S256x512_S2048x512_S256x2048_1_1_0_0_n_n.rhsIdx (ix2 s k) ((contrEquiv1 dot_S256x512_S2048x512_S256x2048_1_1_0_0_n_n 512 rfl rfl).symm c) = ix2 k c := funext fun ax => Fin.ext (by
    match ax with
    | ⟨0, _⟩ => exact rhs_D1_0 _ _
    | ⟨1, _⟩ => exact (rhs_D1_1 _ _).trans hk)
  rw [el, er]

theorem lhs_D2_0 (i : S256x512.Idx) (q : dot_S256x2048_S2048x512_S256x512_1_0_0_1_n_n.contr.Idx) :
    (dot_S256x2048_S2048x512_S256x512_1_0_0_1_n_n.lhsIdx i q 0).val = (i 0).val := by
  unfold DotDims.lhsIdx
  rw [dif_neg (show ¬(0 : Fin S256x2048.rank) ∈ dot_S256x2048_S2048x512_S256x512_1_0_0_1_n_n.lhsBatch by decide), dif_pos (show (0 : Fin S256x2048.rank) ∈ dot_S256x2048_S2048x512_S256x512_1_0_0_1_n_n.lhsNonContracting by decide)]
  rfl
theorem lhs_D2_1 (i : S256x512.Idx) (q : dot_S256x2048_S2048x512_S256x512_1_0_0_1_n_n.contr.Idx) :
    (dot_S256x2048_S2048x512_S256x512_1_0_0_1_n_n.lhsIdx i q 1).val = (q ⟨0, by decide⟩).val :=
  dot_S256x2048_S2048x512_S256x512_1_0_0_1_n_n.lhsIdx_val_of_single rfl i q
theorem rhs_D2_0 (i : S256x512.Idx) (q : dot_S256x2048_S2048x512_S256x512_1_0_0_1_n_n.contr.Idx) :
    (dot_S256x2048_S2048x512_S256x512_1_0_0_1_n_n.rhsIdx i q 0).val = (q ⟨0, by decide⟩).val :=
  dot_S256x2048_S2048x512_S256x512_1_0_0_1_n_n.rhsIdx_val_of_single rfl i q
theorem rhs_D2_1 (i : S256x512.Idx) (q : dot_S256x2048_S2048x512_S256x512_1_0_0_1_n_n.contr.Idx) :
    (dot_S256x2048_S2048x512_S256x512_1_0_0_1_n_n.rhsIdx i q 1).val = (i 1).val := by
  unfold DotDims.rhsIdx
  rw [dif_neg (show ¬(1 : Fin S2048x512.rank) ∈ dot_S256x2048_S2048x512_S256x512_1_0_0_1_n_n.rhsBatch by decide), dif_pos (show (1 : Fin S2048x512.rank) ∈ dot_S256x2048_S2048x512_S256x512_1_0_0_1_n_n.rhsNonContracting by decide)]
  rfl

/-- The second product at `(s, c)`: the sum over the chunk's rows of weight `(s, k)` times chunk entry `(k, c)`. -/
theorem matmul_D2_apply (a : FVec Ideal S256x2048 .f32) (b : FVec Ideal S2048x512 .f32) (s : Fin 256) (c : Fin 512) :
    matmul dot_S256x2048_S2048x512_S256x512_1_0_0_1_n_n none a b (constant S256x512 .f32 0x00000000#32) (ix2 s c)
      = ∑ k : Fin 2048, a (ix2 s k) * b (ix2 k c) := by
  simp only [matmul]
  rw [Ideal.matmul_constant_zero_apply, ← Equiv.sum_comp (contrEquiv1 dot_S256x2048_S2048x512_S256x512_1_0_0_1_n_n 2048 rfl rfl).symm]
  refine Finset.sum_congr rfl fun k _ => ?_
  have hk := contrEquiv1_symm_val dot_S256x2048_S2048x512_S256x512_1_0_0_1_n_n 2048 rfl rfl k
  have el : dot_S256x2048_S2048x512_S256x512_1_0_0_1_n_n.lhsIdx (ix2 s c) ((contrEquiv1 dot_S256x2048_S2048x512_S256x512_1_0_0_1_n_n 2048 rfl rfl).symm k) = ix2 s k := funext fun ax => Fin.ext (by
    match ax with
    | ⟨0, _⟩ => exact lhs_D2_0 _ _
    | ⟨1, _⟩ => exact (lhs_D2_1 _ _).trans hk)
  have er : dot_S256x2048_S2048x512_S256x512_1_0_0_1_n_n.rhsIdx (ix2 s c) ((contrEquiv1 dot_S256x2048_S2048x512_S256x512_1_0_0_1_n_n 2048 rfl rfl).symm k) = ix2 k c := funext fun ax => Fin.ext (by
    match ax with
    | ⟨0, _⟩ => exact (rhs_D2_0 _ _).trans hk
    | ⟨1, _⟩ => exact rhs_D2_1 _ _)
  rw [el, er]

/-! ## The chunk's payloads at an index -/

/-- The chunk's logits: entry `(s, k)` is the sum over the channels of query row `s` times the chunk's row `k`. -/
theorem pay7_apply (x0 : Vec Ideal S256x512 .f32) (x1 : Vec Ideal S1x2048x512 .f32) (s : Fin 256) (k : Fin 2048) :
    k0_pay7 x0 x1 (ix2 s k) = ∑ c : Fin 512, x0 (ix2 s c) * x1 (ix3 (0 : Fin 1) k c) := by
  unfold k0_pay7
  refine (matmul_D1_apply _ _ s k).trans ?_
  refine Finset.sum_congr rfl fun c _ => ?_
  rw [shapeCast_self, pay6_apply]

/-- The new running maximum of row `s`: the old one against the maximum of the chunk's logits (from `⊥`). -/
theorem pay8_apply (x0 : Vec Ideal S256x512 .f32) (x1 : Vec Ideal S1x2048x512 .f32) (v8 : Vec Ideal S256x1 .f32) (s : Fin 256) :
    k0_pay8 x0 x1 v8 (ix2 s (0 : Fin 1))
      = max (v8 (ix2 s (0 : Fin 1)))
          ((Finset.univ : Finset (Fin 2048)).fold max (⊥ : EReal) (fun k => k0_pay7 x0 x1 (ix2 s k))) := by
  unfold k0_pay8
  refine (maximumf_apply _ _ _).trans ?_
  refine congrArg (max (v8 (ix2 s (0 : Fin 1)))) ?_
  refine (shapeCast_a_a1_apply _ _ s (0 : Fin 1)).trans ?_
  exact rowmax_apply _ _ _ _ s

/-- The stored maximum is the new running maximum. -/
theorem pay12_eq (x0 : Vec Ideal S256x512 .f32) (x1 : Vec Ideal S1x2048x512 .f32) (v8 : Vec Ideal S256x1 .f32) :
    k0_pay12 x0 x1 v8 = k0_pay8 x0 x1 v8 := by
  unfold k0_pay12
  exact shapeCast_self _ _

/-- The re-shift factor of row `s`: the exponential of the old maximum minus the new one. -/
theorem pay9_apply (x0 : Vec Ideal S256x512 .f32) (x1 : Vec Ideal S1x2048x512 .f32) (v8 : Vec Ideal S256x1 .f32) (s : Fin 256) :
    k0_pay9 x0 x1 v8 (ix2 s (0 : Fin 1))
      = Ideal.exp (v8 (ix2 s (0 : Fin 1)) - k0_pay8 x0 x1 v8 (ix2 s (0 : Fin 1))) := by
  unfold k0_pay9
  rfl

/-- The chunk's weights: entry `(s, k)` is the exponential of the logit minus the row's new maximum. -/
theorem pay10_apply (x0 : Vec Ideal S256x512 .f32) (x1 : Vec Ideal S1x2048x512 .f32) (v8 : Vec Ideal S256x1 .f32) (s : Fin 256)
    (k : Fin 2048) :
    k0_pay10 x0 x1 v8 (ix2 s k)
      = Ideal.exp (k0_pay7 x0 x1 (ix2 s k) - k0_pay8 x0 x1 v8 (ix2 s (0 : Fin 1))) := by
  unfold k0_pay10
  refine (vexp_apply _ _).trans ?_
  refine congrArg Ideal.exp ?_
  refine (subf_apply _ _ _).trans ?_
  exact congrArg (k0_pay7 x0 x1 (ix2 s k) - ·) (broadcastTo_a1_ab_apply _ _ s k)

/-- The stored weight sum of row `s`: the old one re-shifted, plus the sum of the chunk's weights. -/
theorem pay11_apply (x0 : Vec Ideal S256x512 .f32) (x1 : Vec Ideal S1x2048x512 .f32) (v8 v17 : Vec Ideal S256x1 .f32) (s : Fin 256) :
    k0_pay11 x0 x1 v8 v17 (ix2 s (0 : Fin 1))
      = v17 (ix2 s (0 : Fin 1)) * k0_pay9 x0 x1 v8 (ix2 s (0 : Fin 1)) + ∑ k : Fin 2048, k0_pay10 x0 x1 v8 (ix2 s k) := by
  unfold k0_pay11
  refine (congrFun (shapeCast_self _ _) (ix2 s (0 : Fin 1))).trans ?_
  refine (addf_apply _ _ _).trans ?_
  refine congrArg₂ (· + ·) (mulf_apply _ _ _) ?_
  refine (shapeCast_a_a1_apply _ _ s (0 : Fin 1)).trans ?_
  exact rowsum_apply _ _ _ _ s

/-- The updated accumulator at `(s, c)`: the old entry re-shifted, plus the chunk's weighted sum of channel `c`. -/
theorem pay13_apply (x0 : Vec Ideal S256x512 .f32) (x1 : Vec Ideal S1x2048x512 .f32) (v8 : Vec Ideal S256x1 .f32)
    (v29 : Vec Ideal S256x512 .f32) (s : Fin 256) (c : Fin 512) :
    k0_pay13 x0 x1 v8 v29 (ix2 s c)
      = v29 (ix2 s c) * k0_pay9 x0 x1 v8 (ix2 s (0 : Fin 1))
        + ∑ k : Fin 2048, k0_pay10 x0 x1 v8 (ix2 s k) * x1 (ix3 (0 : Fin 1) k c) := by
  unfold k0_pay13
  refine (addf_apply _ _ _).trans ?_
  refine congrArg₂ (· + ·) ?_ ?_
  · refine (mulf_apply _ _ _).trans ?_
    exact congrArg (v29 (ix2 s c) * ·) (broadcastTo_a1_ab_apply _ _ s c)
  · refine (matmul_D2_apply _ _ s c).trans ?_
    exact Finset.sum_congr rfl fun k _ => by rw [pay6_apply]

/-! ## One chunk on real-valued inputs -/

/-- ONE CHUNK on row `s`, on real-valued inputs: from running maximum `M`, weight sum `L` and accumulator `A`, with the
    chunk's logits `z k = ∑ c, Qs c * Xc k c`, the stored maximum is a real `M'`, and the stored weight sum and
    accumulator are the old ones re-shifted by `exp (M - M')` plus the chunk's sums at shift `M'`. -/
theorem step (x0 : Vec Ideal S256x512 .f32) (x1 : Vec Ideal S1x2048x512 .f32) (v8 v17 : Vec Ideal S256x1 .f32)
    (v29 : Vec Ideal S256x512 .f32) (s : Fin 256) (Qs : Fin 512 → ℝ) (Xc : Fin 2048 → Fin 512 → ℝ)
    (hq : ∀ c, x0 (ix2 s c) = ((Qs c : ℝ) : EReal)) (hx : ∀ k c, x1 (ix3 (0 : Fin 1) k c) = ((Xc k c : ℝ) : EReal))
    (M L : ℝ) (A : Fin 512 → ℝ)
    (hm : v8 (ix2 s (0 : Fin 1)) = ((M : ℝ) : EReal)) (hl : v17 (ix2 s (0 : Fin 1)) = ((L : ℝ) : EReal))
    (ha : ∀ c, v29 (ix2 s c) = ((A c : ℝ) : EReal)) :
    ∃ M' : ℝ,
      k0_pay12 x0 x1 v8 (ix2 s (0 : Fin 1)) = ((M' : ℝ) : EReal)
      ∧ k0_pay11 x0 x1 v8 v17 (ix2 s (0 : Fin 1))
          = ((L * Real.exp (M - M') + ∑ k : Fin 2048, Real.exp ((∑ c : Fin 512, Qs c * Xc k c) - M') : ℝ) : EReal)
      ∧ ∀ c : Fin 512, k0_pay13 x0 x1 v8 v29 (ix2 s c)
          = ((A c * Real.exp (M - M') + ∑ k : Fin 2048, Real.exp ((∑ c' : Fin 512, Qs c' * Xc k c') - M') * Xc k c : ℝ) : EReal) := by
  -- the chunk's logits are real numbers
  have hz : ∀ k : Fin 2048, k0_pay7 x0 x1 (ix2 s k) = ((∑ c : Fin 512, Qs c * Xc k c : ℝ) : EReal) := fun k => by
    rw [pay7_apply, ← StreamedSoftmax.coe_sum]
    refine Finset.sum_congr rfl fun c _ => ?_
    rw [hq, hx, EReal.coe_mul]
  -- their maximum from `⊥` is below `⊤`, so the new running maximum is a real number
  have hne : (Finset.univ : Finset (Fin 2048)).fold max (⊥ : EReal)
      (fun k => ((∑ c : Fin 512, Qs c * Xc k c : ℝ) : EReal)) ≠ ⊤ :=
    StreamedSoftmax.fold_max_ne_top _ _ bot_ne_top
  obtain ⟨M', hM'⟩ := StreamedSoftmax.max_coe_real M hne
  have h8 : k0_pay8 x0 x1 v8 (ix2 s (0 : Fin 1)) = ((M' : ℝ) : EReal) := by
    rw [pay8_apply, hm, funext hz]
    exact hM'
  -- the re-shift factor and the chunk's weights are the real exponentials
  have h9 : k0_pay9 x0 x1 v8 (ix2 s (0 : Fin 1)) = ((Real.exp (M - M') : ℝ) : EReal) := by
    rw [pay9_apply, hm, h8, ← EReal.coe_sub, Ideal.exp_coe]
  have h10 : ∀ k : Fin 2048, k0_pay10 x0 x1 v8 (ix2 s k)
      = ((Real.exp ((∑ c : Fin 512, Qs c * Xc k c) - M') : ℝ) : EReal) := fun k => by
    rw [pay10_apply, hz, h8, ← EReal.coe_sub, Ideal.exp_coe]
  refine ⟨M', ?_, ?_, fun c => ?_⟩
  · rw [pay12_eq]; exact h8
  · rw [pay11_apply, hl, h9, funext h10, StreamedSoftmax.coe_sum, ← EReal.coe_mul, ← EReal.coe_add]
  · rw [pay13_apply, ha, h9, EReal.coe_add, EReal.coe_mul, ← StreamedSoftmax.coe_sum]
    refine congrArg _ (Finset.sum_congr rfl fun k _ => ?_)
    rw [h10, hx, EReal.coe_mul]

end Cert.KernelIdeal.ChunkStep

end
-- ==== Proof.Advance.lean ====
/-
  One chunk advances the streamed state, in the specification's terms.

  Fix a batch `b` and a query `s`, and write `z p` for the logit of row `row p` and `v c p` for channel `c` of that row
  (`p` a pair (chunk, offset)). The streamed state after the chunks before `j` is a real shift `M` with the weight sum
  `den (before j) z M` and the accumulator `num (before j) z (v c) M`. The kernel's chunk logits are
  `∑ c, (q[s,c] * scale) * x[b, row, c]`, which is the specification's `(∑ c, x * q) * scale`; so one chunk's step (its
  stored maximum, weight sum and accumulator) is the state after the chunks before `j + 1`, at a new real shift.
  After the last chunk the quotient accumulator / weight sum is the softmax average over all rows, whatever the shift.
-/
import proofs.«115058_g30648886624911_feedfinal_492_2_alg».proof.Proof.ChunkStep
import proofs.«115058_g30648886624911_feedfinal_492_2_alg».proof.Proof.PooledSpec

noncomputable section

namespace Cert.KernelIdeal.Advance

open Cert.KernelIdeal Cert.KernelIdeal.Gen Idealize.ShloMosaic Idealize.ShloMosaic.ValueIdx StreamedSoftmax PooledSpec

/-- The logits of batch `b`, query `s`, over the pairs (chunk, offset). -/
def zrow (X : SX.Idx → ℝ) (Q : SQ.Idx → ℝ) (b : Fin 8) (s : Fin 256) (p : Fin 16 × Fin 2048) : ℝ := logit X Q b s (row p)

/-- Channel `c` of batch `b`'s rows, over the pairs (chunk, offset). -/
def vrow (X : SX.Idx → ℝ) (b : Fin 8) (c : Fin 512) (p : Fin 16 × Fin 2048) : ℝ := X (ix3 b (row p) c)

/-- The kernel scales the query first: its chunk logit is the specification's. -/
theorem logit_scaled (X : SX.Idx → ℝ) (Q : SQ.Idx → ℝ) (b : Fin 8) (s : Fin 256) (n : Fin 32768) :
    ∑ c : Fin 512, (Q (ix2 s c) * scale) * X (ix3 b n c) = logit X Q b s n := by
  unfold logit
  rw [Finset.sum_mul]
  exact Finset.sum_congr rfl fun c _ => by ring

/-- ONE CHUNK, from the state over the chunks before `j` to the state over the chunks before `j + 1`. -/
theorem advance (x0 : Vec Ideal S256x512 .f32) (x1 : Vec Ideal S1x2048x512 .f32) (v8 v17 : Vec Ideal S256x1 .f32)
    (v29 : Vec Ideal S256x512 .f32) (X : SX.Idx → ℝ) (Q : SQ.Idx → ℝ) (b : Fin 8) (j : Fin 16) (s : Fin 256)
    (hq : ∀ c, x0 (ix2 s c) = ((Q (ix2 s c) * scale : ℝ) : EReal))
    (hx : ∀ k c, x1 (ix3 (0 : Fin 1) k c) = ((X (ix3 b (row (j, k)) c) : ℝ) : EReal))
    (M : ℝ) (hm : v8 (ix2 s (0 : Fin 1)) = ((M : ℝ) : EReal))
    (hl : v17 (ix2 s (0 : Fin 1)) = ((den (before j.val) (zrow X Q b s) M : ℝ) : EReal))
    (ha : ∀ c, v29 (ix2 s c) = ((num (before j.val) (zrow X Q b s) (vrow X b c) M : ℝ) : EReal)) :
    ∃ M' : ℝ,
      k0_pay12 x0 x1 v8 (ix2 s (0 : Fin 1)) = ((M' : ℝ) : EReal)
      ∧ k0_pay11 x0 x1 v8 v17 (ix2 s (0 : Fin 1)) = ((den (before (j.val + 1)) (zrow X Q b s) M' : ℝ) : EReal)
      ∧ ∀ c : Fin 512, k0_pay13 x0 x1 v8 v29 (ix2 s c) = ((num (before (j.val + 1)) (zrow X Q b s) (vrow X b c) M' : ℝ) : EReal) := by
  obtain ⟨M', h12, h11, h13⟩ := ChunkStep.step x0 x1 v8 v17 v29 s (fun c => Q (ix2 s c) * scale)
    (fun k c => X (ix3 b (row (j, k)) c)) hq hx M _ _ hm hl ha
  have hz : ∀ k : Fin 2048, (∑ c : Fin 512, (Q (ix2 s c) * scale) * X (ix3 b (row (j, k)) c)) = zrow X Q b s (j, k) :=
    fun k => logit_scaled X Q b s (row (j, k))
  refine ⟨M', h12, ?_, fun c => ?_⟩
  · rw [h11]
    congr 1
    rw [before_succ, ← den_union (before_disjoint j.val) (zrow X Q b s) M M']
    congr 1
    unfold den
    rw [sum_chunk j]
    exact Finset.sum_congr rfl fun k _ => by rw [hz k]
  · rw [h13 c]
    congr 1
    rw [before_succ, ← num_union (before_disjoint j.val) (zrow X Q b s) (vrow X b c) M M']
    congr 1
    unfold num
    rw [sum_chunk j]
    exact Finset.sum_congr rfl fun k _ => by rw [hz k]; rfl

/-- Before the first chunk the state is empty: any shift, weight sum zero, accumulator zero. -/
theorem den_start (z : Fin 16 × Fin 2048 → ℝ) (M : ℝ) : den (before 0) z M = 0 := by rw [before_zero, den_empty]
theorem num_start (z v : Fin 16 × Fin 2048 → ℝ) (M : ℝ) : num (before 0) z v M = 0 := by rw [before_zero, num_empty]

/-- AFTER THE LAST CHUNK the quotient accumulator / weight sum is the specification's pooled value. -/
theorem emit (X : SX.Idx → ℝ) (Q : SQ.Idx → ℝ) (b : Fin 8) (s : Fin 256) (c : Fin 512) (M : ℝ) :
    Ideal.div ((num (before 16) (zrow X Q b s) (vrow X b c) M : ℝ) : EReal) ((den (before 16) (zrow X Q b s) M : ℝ) : EReal)
      = ((pooled X Q b s c : ℝ) : EReal) := by
  have hpos : 0 < den (before 16) (zrow X Q b s) M := by
    rw [before_all]; exact den_pos ⟨((0 : Fin 16), (0 : Fin 2048)), Finset.mem_univ _⟩ _ _
  have e : avg Finset.univ (zrow X Q b s) (vrow X b c) = pooled X Q b s c := by
    unfold pooled zrow vrow
    exact (avg_rows (logit X Q b s) (fun n => X (ix3 b n c))).symm
  rw [div_coe_coe _ hpos.ne', num_div_den, before_all, e]

end Cert.KernelIdeal.Advance

end
-- ==== Proof.StreamedState.lean ====
/-
  The streamed state after every grid point, and what the last chunk of a batch emits.

  Point `t` is batch `t / 16`, chunk `t % 16`. On real-valued arguments, after the body at point `t` and for every
  query `s`: column 0 of the running-maximum buffer holds a real `M`, column 0 of the weight-sum buffer holds
  `den (before (t % 16 + 1)) z M` and row `s` of the accumulator holds `num (before (t % 16 + 1)) z (v c) M`, where `z`
  and `v c` are the batch's logits and channel `c` over the rows seen so far (`RowState`). The first chunk starts
  from the reset values (the empty state at the reset's shift), every later chunk from what the point before left, and
  each advances the state by one chunk (`Advance.advance`): an induction on the point. At a batch's last chunk the
  emitted block is accumulator / weight sum over all 16 chunks, the specification's pooled value.
-/
import proofs.«115058_g30648886624911_feedfinal_492_2_alg».proof.Proof.Pieces
import proofs.«115058_g30648886624911_feedfinal_492_2_alg».proof.Proof.Blocks
import proofs.«115058_g30648886624911_feedfinal_492_2_alg».proof.Proof.Advance

noncomputable section

open Idealize.ShloMosaic Idealize.ShloMosaic.TcCoe Idealize.SL.Sem

namespace Cert.KernelIdeal.Streamed

open Cert.KernelIdeal Cert.KernelIdeal.Gen Idealize.ShloMosaic.ValueIdx StreamedSoftmax PooledSpec
open Cert.KernelIdeal.Pieces Cert.KernelIdeal.Blocks Cert.KernelIdeal.Advance Cert.KernelIdeal.ChunkStep

variable (m : (ℓ : Loc nD τ sig) → Buf (Elt Ideal) ℓ) (c : Dev nD)

/-- The real parts of the argument arrays. -/
def Xr : SX.Idx → ℝ := fun j => (xarr m c j).toReal
def Qr : SQ.Idx → ℝ := fun j => (qarr m c j).toReal

/-- The two input blocks at point `t`, as vectors of their literal shapes. -/
abbrev qblk (t : Fin cfg0.N) : Vec Ideal S256x512 .f32 := iblk m c 0 t
abbrev xblk (t : Fin cfg0.N) : Vec Ideal S1x2048x512 .f32 := iblk m c 1 t

section Real

/-- The scaled-query block's entries are the real `q[s, c] * scale`. -/
theorem qblk_real (hq : IsReal (qarr m c)) (t : Fin cfg0.N) (s : Fin 256) (cc : Fin 512) :
    qblk m c t (ix2 s cc) = ((Qr m c (ix2 s cc) * scale : ℝ) : EReal) := by
  have e : qarr m c (ix2 s cc) = ((Qr m c (ix2 s cc) : ℝ) : EReal) := hq _
  show iblk m c 0 t (ix2 s cc) = _
  rw [qblk_apply]
  show sqarr m c (ix2 s cc) = _
  rw [scaled_apply, e, scale_eq, ← EReal.coe_mul]

/-- The `x` block's entries are the real rows of the point's chunk. -/
theorem xblk_real (hx : IsReal (xarr m c)) (t : Fin cfg0.N) (k : Fin 2048) (cc : Fin 512) :
    xblk m c t (ix3 (0 : Fin 1) k cc) = ((Xr m c (ix3 (batch t) (row (chunkOf t, k)) cc) : ℝ) : EReal) := by
  show iblk m c 1 t (ix3 (0 : Fin 1) k cc) = _
  rw [xblk_apply]
  exact hx _

/-- The streamed state of query `s` in batch `b` over the chunks before `j`: a real shift in column 0 of the maximum
    buffer, the weight sum in column 0 of the sum buffer, the weighted sums in row `s` of the accumulator. -/
def RowState (b : Fin 8) (j : ℕ) (s : Fin 256) (acc : Vec Ideal S256x512 .f32) (mx lx : Vec Ideal S256x128 .f32) : Prop :=
  ∃ M : ℝ, mx (ix2 s (0 : Fin 128)) = ((M : ℝ) : EReal)
    ∧ lx (ix2 s (0 : Fin 128)) = ((den (before j) (zrow (Xr m c) (Qr m c) b s) M : ℝ) : EReal)
    ∧ ∀ cc : Fin 512, acc (ix2 s cc) = ((num (before j) (zrow (Xr m c) (Qr m c) b s) (vrow (Xr m c) b cc) M : ℝ) : EReal)

/-- The reset values are the empty state (at the real shift the reset word denotes). -/
theorem reset_state (b : Fin 8) (s : Fin 256) :
    RowState m c b 0 s (k0_pay5 (F := Ideal)) (k0_pay3 (F := Ideal)) (k0_pay4 (F := Ideal)) := by
  obtain ⟨μ, hμ⟩ := ofBits_f32_real 0xF149F2CA#32 (by decide)
  refine ⟨μ, ?_, ?_, fun cc => ?_⟩
  · rw [pay3_apply, hμ]
  · rw [pay4_apply, den_start]; rfl
  · rw [pay5_apply, num_start]; rfl

/-- ONE POINT's update of a row, from any buffers in the state over the chunks before the point's chunk. -/
theorem update_state (hx : IsReal (xarr m c)) (hq : IsReal (qarr m c)) (t : Fin cfg0.N) (s : Fin 256) (xs0 : Vec Ideal S256x512 .f32) (xs1 xs2 : Vec Ideal S256x128 .f32)
    (h : RowState m c (batch t) (chunkOf t).val s xs0 xs1 xs2) :
    ∃ M' : ℝ,
      k0_pay12 (qblk m c t) (xblk m c t) (col0 xs1) (ix2 s (0 : Fin 1)) = ((M' : ℝ) : EReal)
      ∧ k0_pay11 (qblk m c t) (xblk m c t) (col0 xs1) (col0 xs2) (ix2 s (0 : Fin 1))
          = ((den (before ((chunkOf t).val + 1)) (zrow (Xr m c) (Qr m c) (batch t) s) M' : ℝ) : EReal)
      ∧ ∀ cc : Fin 512, k0_pay1 (k0_pay13 (qblk m c t) (xblk m c t) (col0 xs1) xs0) (ix2 s cc)
          = ((num (before ((chunkOf t).val + 1)) (zrow (Xr m c) (Qr m c) (batch t) s) (vrow (Xr m c) (batch t) cc) M' : ℝ) : EReal) := by
  obtain ⟨M, hm, hl, ha⟩ := h
  obtain ⟨M', e12, e11, e13⟩ := advance (qblk m c t) (xblk m c t) (col0 xs1) (col0 xs2) xs0 (Xr m c) (Qr m c) (batch t) (chunkOf t) s
    (qblk_real m c hq t s) (xblk_real m c hx t) M
    (by rw [col0_apply]; exact hm) (by rw [col0_apply]; exact hl) ha
  exact ⟨M', e12, e11, fun cc => by rw [pay1_eq]; exact e13 cc⟩

/-- A middle chunk advances the state. -/
theorem state_B (hx : IsReal (xarr m c)) (hq : IsReal (qarr m c)) (t : Fin cfg0.N) (hc0 : ¬cond0_0 (grid0.coords t)) (hc1 : ¬cond0_1 (grid0.coords t)) (s : Fin 256)
    (xs0 : Vec Ideal S256x512 .f32) (xs1 xs2 : Vec Ideal S256x128 .f32)
    (h : RowState m c (batch t) (chunkOf t).val s xs0 xs1 xs2) :
    RowState m c (batch t) ((chunkOf t).val + 1) s
      (sout0_B_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t) xs0 xs1 xs2)
      (sout0_B_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t) xs0 xs1 xs2)
      (sout0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t) xs0 xs1 xs2) := by
  obtain ⟨M', e12, e11, e13⟩ := update_state m c hx hq t s xs0 xs1 xs2 h
  refine ⟨M', ?_, ?_, fun cc => ?_⟩
  · rw [max_B]; exact e12
  · rw [sum_B]; exact e11
  · rw [acc_B]; exact e13 cc

/-- The last chunk advances the state too. -/
theorem state_C (hx : IsReal (xarr m c)) (hq : IsReal (qarr m c)) (t : Fin cfg0.N) (hc0 : ¬cond0_0 (grid0.coords t)) (hc1 : cond0_1 (grid0.coords t)) (s : Fin 256)
    (xs0 : Vec Ideal S256x512 .f32) (xs1 xs2 : Vec Ideal S256x128 .f32)
    (h : RowState m c (batch t) (chunkOf t).val s xs0 xs1 xs2) :
    RowState m c (batch t) ((chunkOf t).val + 1) s
      (sout0_C_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t) xs0 xs1 xs2)
      (sout0_C_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t) xs0 xs1 xs2)
      (sout0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t) xs0 xs1 xs2) := by
  obtain ⟨M', e12, e11, e13⟩ := update_state m c hx hq t s xs0 xs1 xs2 h
  refine ⟨M', ?_, ?_, fun cc => ?_⟩
  · rw [max_C]; exact e12
  · rw [sum_C]; exact e11
  · rw [acc_C]; exact e13 cc

/-- The first chunk advances the empty state. -/
theorem state_A (hx : IsReal (xarr m c)) (hq : IsReal (qarr m c)) (t : Fin cfg0.N) (hc0 : cond0_0 (grid0.coords t)) (hc1 : ¬cond0_1 (grid0.coords t)) (s : Fin 256)
    (h0 : (chunkOf t).val = 0) :
    RowState m c (batch t) ((chunkOf t).val + 1) s
      (sout0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t))
      (sout0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t))
      (sout0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t)) := by
  have hr : RowState m c (batch t) (chunkOf t).val s (k0_pay5 (F := Ideal)) (k0_pay3 (F := Ideal)) (k0_pay4 (F := Ideal)) := by
    rw [h0]; exact reset_state m c (batch t) s
  obtain ⟨M', e12, e11, e13⟩ := update_state m c hx hq t s _ _ _ hr
  refine ⟨M', ?_, ?_, fun cc => ?_⟩
  · rw [max_A]; exact e12
  · rw [sum_A]; exact e11
  · rw [acc_A]; exact e13 cc

/-- What the last chunk emits at (0, s, c): the specification's pooled value of the point's batch. -/
theorem emit_C0 (hx : IsReal (xarr m c)) (hq : IsReal (qarr m c)) (t : Fin cfg0.N) (hc0 : ¬cond0_0 (grid0.coords t)) (hc1 : cond0_1 (grid0.coords t)) (h15 : (chunkOf t).val = 15)
    (xs0 : Vec Ideal S256x512 .f32) (xs1 xs2 : Vec Ideal S256x128 .f32)
    (h : ∀ s, RowState m c (batch t) (chunkOf t).val s xs0 xs1 xs2) (s : Fin 256) (cc : Fin 512) :
    out0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t) xs0 xs1 xs2 (ix3 (0 : Fin 1) s cc)
      = G (xarr m c) (qarr m c) (ix3 (batch t) s cc) := by
  obtain ⟨M', e12, e11, e13⟩ := update_state m c hx hq t s xs0 xs1 xs2 (h s)
  rw [out_C, pay2_apply, e13 cc, e11, h15, G_apply]
  exact emit (Xr m c) (Qr m c) (batch t) s cc M'

/-- The same at any index of the block (its first coordinate is 0). -/
theorem emit_C (hx : IsReal (xarr m c)) (hq : IsReal (qarr m c)) (t : Fin cfg0.N) (hc0 : ¬cond0_0 (grid0.coords t)) (hc1 : cond0_1 (grid0.coords t)) (h15 : (chunkOf t).val = 15)
    (xs0 : Vec Ideal S256x512 .f32) (xs1 xs2 : Vec Ideal S256x128 .f32)
    (h : ∀ s, RowState m c (batch t) (chunkOf t).val s xs0 xs1 xs2) (j : S1x256x512.Idx) :
    out0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t) xs0 xs1 xs2 j
      = G (xarr m c) (qarr m c) (ix3 (batch t) (j 1) (j 2)) := by
  have hj : j = ix3 (0 : Fin 1) (j 1) (j 2) := funext fun a => by
    match a with
    | ⟨0, _⟩ => exact Fin.ext (by have h1 : (j 0).val < 1 := (j 0).isLt; show (j 0).val = 0; omega)
    | ⟨1, _⟩ => rfl
    | ⟨2, _⟩ => rfl
  exact (congrArg (out0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t) xs0 xs1 xs2) hj).trans
    (emit_C0 m c hx hq t hc0 hc1 h15 xs0 xs1 xs2 h (j 1) (j 2))

/-- THE STATE AFTER EVERY POINT, by induction on the point. -/
theorem state_at (hx : IsReal (xarr m c)) (hq : IsReal (qarr m c)) : ∀ (n : ℕ) (h : n < cfg0.N) (s : Fin 256),
    RowState m c (batch ⟨n, h⟩) (n % 16 + 1) s (outsAt0 m c n h).2.1 (outsAt0 m c n h).2.2.1 (outsAt0 m c n h).2.2.2
  | 0, h, s => by
    rw [outsAt0_A m c ⟨0, h⟩ rfl (by show ¬(0 % 16 = 15); omega)]
    dsimp only
    exact state_A m c hx hq ⟨0, h⟩ _ _ s rfl
  | n + 1, h, s => by
    have hN : n + 1 < 128 := lt_N ⟨n + 1, h⟩
    have ih := state_at hx hq n (Nat.lt_of_succ_lt h) s
    by_cases h0 : (n + 1) % 16 = 0
    · have h1 : ¬(n + 1) % 16 = 15 := by omega
      rw [outsAt0_A m c ⟨n + 1, h⟩ h0 h1]
      dsimp only
      have e := state_A m c hx hq ⟨n + 1, h⟩ ((hcond0_0 ⟨n + 1, h⟩).mpr h0) (fun hh => h1 ((hcond0_1 ⟨n + 1, h⟩).mp hh)) s h0
      rw [show ((chunkOf ⟨n + 1, h⟩).val + 1) = (n + 1) % 16 + 1 from rfl] at e
      exact e
    · have eb : batch ⟨n, Nat.lt_of_succ_lt h⟩ = batch ⟨n + 1, h⟩ := Fin.ext (by show n / 16 = (n + 1) / 16; omega)
      have ej : n % 16 + 1 = (chunkOf ⟨n + 1, h⟩).val := by show n % 16 + 1 = (n + 1) % 16; omega
      rw [eb, ej] at ih
      by_cases h1 : (n + 1) % 16 = 15
      · rw [outsAt0_C m c ⟨n + 1, h⟩ h0 h1]
        dsimp only
        exact state_C m c hx hq ⟨n + 1, h⟩ _ _ s _ _ _ ih
      · rw [outsAt0_B m c ⟨n + 1, h⟩ h0 h1]
        dsimp only
        exact state_B m c hx hq ⟨n + 1, h⟩ _ _ s _ _ _ ih

/-- WHAT A BATCH'S LAST POINT EMITS: the specification's block of that batch. -/
theorem emitted (hx : IsReal (xarr m c)) (hq : IsReal (qarr m c)) (t : Fin cfg0.N) (h0 : ¬t.val % 16 = 0) (h15 : t.val % 16 = 15) (j : S1x256x512.Idx) :
    (outsAt0 m c t.val t.isLt).1 j = G (xarr m c) (qarr m c) (ix3 (batch t) (j 1) (j 2)) := by
  have hN := lt_N t
  have hpos : 0 < t.val := by omega
  have hlt : t.val - 1 < cfg0.N := Nat.lt_of_le_of_lt (Nat.sub_le _ _) t.isLt
  have ih : ∀ s, RowState m c (batch t) (chunkOf t).val s (outsAt0 m c (t.val - 1) hlt).2.1 (outsAt0 m c (t.val - 1) hlt).2.2.1 (outsAt0 m c (t.val - 1) hlt).2.2.2 := fun s => by
    have e := state_at m c hx hq (t.val - 1) hlt s
    have eb : batch ⟨t.val - 1, hlt⟩ = batch t := Fin.ext (by show (t.val - 1) / 16 = t.val / 16; omega)
    have ej : (t.val - 1) % 16 + 1 = (chunkOf t).val := by show (t.val - 1) % 16 + 1 = t.val % 16; omega
    rw [eb, ej] at e
    exact e
  rw [outsAt0_C m c t h0 h15]
  dsimp only
  exact emit_C m c hx hq t _ _ h15 _ _ _ ih j

end Real

end Cert.KernelIdeal.Streamed

end
-- ==== Proof.KernelValue.lean ====
/-
  The kernel's result array is the specification.

  The result window is written back only at a batch's last chunk (the points ≡ 15 mod 16), and what is written back
  there is the specification's block of that batch (`Streamed.emitted`). Batch `b`'s block is written by point
  `16 * b + 15`, so the eight written blocks cover the array, and the array ends holding the specification.
-/
import proofs.«115058_g30648886624911_feedfinal_492_2_alg».proof.Proof.Gen.KernelIdeal.Value
import proofs.«115058_g30648886624911_feedfinal_492_2_alg».proof.Proof.StreamedState

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Idealize.ShloMosaic.ValueIdx PooledSpec
open Cert.KernelIdeal.Blocks Cert.KernelIdeal.Streamed

variable (m : (ℓ : Loc nD τ sig) → Buf (Elt Ideal) ℓ) (c : Dev nD)

/-- What a flushing point writes back is its block of the specification. -/
theorem flushed_eq (hx : IsReal (xarr m c)) (hq : IsReal (qarr m c)) (t : Fin cfg0.N) (hf : (cfg0.win 2).flush t = true) :
    (dats m 0 c).flushed 2 t = ((cfg0.win 2).blk t).view.read (Elt Ideal) (G (xarr m c) (qarr m c)) := by
  have h15 : t.val % 16 = 15 := (flush0_2 t).mp hf
  have h0 : ¬t.val % 16 = 0 := by omega
  rw [Cert.KernelIdeal.Value.flushed2]
  funext j
  show (outsAt0 m c t.val t.isLt).1 j = G (xarr m c) (qarr m c) (((cfg0.win 2).blk t).view.emb j)
  exact (emitted m c hx hq t h0 h15 j).trans (congrArg (G (xarr m c) (qarr m c)) (oblk_emb t j).symm)

/-- Every index of the result array is in the block of its batch's last point, which is written back. -/
theorem covered (i : S8x256x512.Idx) :
    ∃ t : Fin cfg0.N, (cfg0.win 2).flush t = true ∧ i ∈ ((cfg0.win 2).blk t).view.set := by
  have hi0 : (i 0).val < 8 := (i 0).isLt
  have hi1 : (i 1).val < 256 := (i 1).isLt
  have hi2 : (i 2).val < 512 := (i 2).isLt
  have hN : cfg0.N = 128 := N_0
  have hlt : 16 * (i 0).val + 15 < cfg0.N := by rw [hN]; omega
  obtain ⟨-, -, -, -, -, e0, e1, e2⟩ := idx_facts ⟨16 * (i 0).val + 15, hlt⟩
  have et : (⟨16 * (i 0).val + 15, hlt⟩ : Fin cfg0.N).val = 16 * (i 0).val + 15 := rfl
  refine ⟨⟨16 * (i 0).val + 15, hlt⟩, (flush0_2 _).mpr (by rw [et]; omega), ?_⟩
  show i ∈ ((View.whole main_v2).slice (win0_2.rect ⟨16 * (i 0).val + 15, hlt⟩)).set
  rw [View.set_slice_whole, Rect.mem_set_unit]
  intro a
  match a with
  | ⟨0, _⟩ =>
    show win0_2.index ⟨16 * (i 0).val + 15, hlt⟩ (0 : Fin 3) * 1 ≤ (i 0).val
      ∧ (i 0).val < win0_2.index ⟨16 * (i 0).val + 15, hlt⟩ (0 : Fin 3) * 1 + 1
    omega
  | ⟨1, _⟩ =>
    show win0_2.index ⟨16 * (i 0).val + 15, hlt⟩ (1 : Fin 3) * 256 ≤ (i 1).val
      ∧ (i 1).val < win0_2.index ⟨16 * (i 0).val + 15, hlt⟩ (1 : Fin 3) * 256 + 256
    omega
  | ⟨2, _⟩ =>
    show win0_2.index ⟨16 * (i 0).val + 15, hlt⟩ (2 : Fin 3) * 512 ≤ (i 2).val
      ∧ (i 2).val < win0_2.index ⟨16 * (i 0).val + 15, hlt⟩ (2 : Fin 3) * 512 + 512
    omega

/-- So on real-valued arguments the result array ends holding the specification. -/
theorem result_eq (hx : IsReal (xarr m c)) (hq : IsReal (qarr m c)) :
    (dats m 0 c).arrAt 2 cfg0.N = G (xarr m c) (qarr m c) :=
  (dats m 0 c).arrAt_eq_of_cover 2 (G (xarr m c) (qarr m c)) (flushed_eq m c hx hq) covered

end Cert.KernelIdeal.KernelValue

/-- The kernel's run, read: on real-valued arguments the result array at the specification, the arguments unchanged. -/
theorem Cert.KernelIdeal.KernelValue.run (m : (ℓ : Loc Cert.KernelIdeal.nD Cert.KernelIdeal.τ Cert.KernelIdeal.sig) → Buf (Elt Ideal) ℓ)
    (ρ : Dev Cert.KernelIdeal.nD → PrngReg)
    (hreal : ∀ c, PooledSpec.IsReal (Cert.KernelIdeal.Blocks.xarr m c) ∧ PooledSpec.IsReal (Cert.KernelIdeal.Blocks.qarr m c)) :
    θ_run Cert.KernelIdeal.defs (onTc (τ := Cert.KernelIdeal.τ) (Cert.KernelIdeal.main (F := Ideal))) ⟨m, fun _ => 0, ρ⟩ fun r =>
      ∀ c : Dev Cert.KernelIdeal.nD,
        r.2.mem ((c : Thread Cert.KernelIdeal.nD Cert.KernelIdeal.τ).loc Cert.KernelIdeal.main_v2)
            = PooledSpec.G (Cert.KernelIdeal.Blocks.xarr m c) (Cert.KernelIdeal.Blocks.qarr m c)
        ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1) :=
  (θ_run Cert.KernelIdeal.defs _ _).mono
    (fun r h c => ⟨(h c).1.trans (Cert.KernelIdeal.KernelValue.result_eq m c (hreal c).1 (hreal c).2), (h c).2⟩)
    (Cert.KernelIdeal.Value.run_blocks m ρ)

end
-- ==== Proof.RefValue.lean ====
/-
  The reference's result is the specification: at every index the reference's chain
    dot_general → transpose → · scale → row maximum → subtract → exp → row sum → divide → dot_general
  read on real-valued arguments is the softmax average `PooledSpec.pooled`.

  One row (a batch `b` and a query `s`) at a time. The scaled products are real numbers, the logits
  `z n` of the row. Their maximum from `⊥` over the 32768 rows is then a real number `Mx` (the set of rows
  is not empty), and the maximum of `⊥` with it is `Mx` again; which real number it is does not matter.
  The weights `exp (z n - Mx)` are real, their sum from `0` is the positive real `den univ z Mx`, each
  quotient is the real quotient, and the last contraction against the values `v n = x[b, n, c]` is
    ∑ n, exp (z n - Mx) / den univ z Mx * v n,
  the two-pass form of the softmax average, which is the same at every shift.
-/
import proofs.«115058_g30648886624911_feedfinal_492_2_alg».proof.Proof.Gen.ReferenceIdeal.Read
import proofs.«115058_g30648886624911_feedfinal_492_2_alg».proof.Proof.PooledSpec

noncomputable section

namespace Cert.ReferenceIdeal.RefValue

open Cert.ReferenceIdeal Cert.ReferenceIdeal.Gen Cert.ReferenceIdeal.Read Idealize.ShloMosaic Idealize.ShloMosaic.ValueIdx

/-! ## One row, over plain functions -/

/-- The f32 word `0xFF800000` denotes `⊥`. -/
theorem ofBits_neg_inf : Ideal.ofBits .f32 0xFF800000#32 = (⊥ : EReal) := by
  simp [Ideal.ofBits, Ideal.ieee]

/-- One row of the two-pass softmax on real numbers: with weights `e n = exp (z n - Mx)` and their sum `l` taken
    from `0`, the contraction of the quotients `e n / l` against the values is the softmax average. -/
theorem row_value {ι : Type} [Fintype ι] (hne : (Finset.univ : Finset ι).Nonempty) (z v : ι → ℝ) (Mx : ℝ)
    (e : ι → EReal) (l : EReal)
    (he : ∀ n, e n = Ideal.exp ((z n : EReal) - (Mx : EReal)))
    (hl : l = 0 + ∑ n, e n) :
    ∑ n, Ideal.div (e n) l * (v n : EReal) = ((StreamedSoftmax.avg Finset.univ z v : ℝ) : EReal) := by
  have he' : ∀ n, e n = ((Real.exp (z n - Mx) : ℝ) : EReal) := fun n => by
    rw [he n, ← EReal.coe_sub, Ideal.exp_coe]
  have hl' : l = ((StreamedSoftmax.den Finset.univ z Mx : ℝ) : EReal) := by
    rw [hl, zero_add]
    unfold StreamedSoftmax.den
    rw [← StreamedSoftmax.coe_sum]
    exact Finset.sum_congr rfl fun n _ => he' n
  have hpos := StreamedSoftmax.den_pos hne z Mx
  rw [← StreamedSoftmax.sum_normalized Finset.univ z v Mx, ← StreamedSoftmax.coe_sum]
  refine Finset.sum_congr rfl fun n _ => ?_
  rw [he' n, hl', StreamedSoftmax.div_coe_coe _ hpos.ne', ← EReal.coe_mul]

/-! ## The program's stages, read at the coordinates of one row -/

section Stages

variable (x0 : (⟨S8x32768x512, .f32⟩ : BufTy).Contents (Elt Ideal)) (x1 : (⟨S256x512, .f32⟩ : BufTy).Contents (Elt Ideal))

/-- The scaled products at `(b, s, n)` are the specification's logit, a real number. -/
theorem v3_at (hx : PooledSpec.IsReal x0) (hq : PooledSpec.IsReal x1) (b : Fin 8) (s : Fin 256) (n : Fin 32768) :
    val_main_v3 (F := Ideal) x0 x1 (ix3 b s n)
      = ((PooledSpec.logit (fun j => (x0 j).toReal) (fun j => (x1 j).toReal) b s n : ℝ) : EReal) := by
  rw [val_main_v3_apply, val_main_v1_apply, val_main_v0_apply, val_main_v2_apply, val_main_cst_apply,
    Ideal.mulf_def, Ideal.ofBits_def, PooledSpec.scale_eq]
  unfold PooledSpec.logit
  rw [EReal.coe_mul, ← StreamedSoftmax.coe_sum]
  refine congrArg (· * (PooledSpec.scale : EReal)) (Finset.sum_congr rfl fun k _ => ?_)
  have el : lidx_main_v0 (idx_main_v1 (ix3 b s n)) k = ix3 b n k := funext fun a => by
    match a with | ⟨0, _⟩ => rfl | ⟨1, _⟩ => rfl | ⟨2, _⟩ => rfl
  have er : ridx_main_v0 (idx_main_v1 (ix3 b s n)) k = ix2 s k := funext fun a => by
    match a with | ⟨0, _⟩ => rfl | ⟨1, _⟩ => rfl
  rw [el, er, EReal.coe_mul]
  exact congrArg₂ (· * ·) (hx _) (hq _)

/-- So every scaled product is a real number. -/
theorem v3_isReal (hx : PooledSpec.IsReal x0) (hq : PooledSpec.IsReal x1) :
    PooledSpec.IsReal (val_main_v3 (F := Ideal) x0 x1) := by
  intro i
  obtain ⟨b, s, n, rfl⟩ : ∃ (b : Fin 8) (s : Fin 256) (n : Fin 32768), i = ix3 b s n := ⟨i 0, i 1, i 2, eq_ix3 i⟩
  rw [v3_at x0 x1 hx hq, EReal.toReal_coe]

/-- The row maximum, taken from `⊥` and then once more against `⊥`, is a real number. -/
theorem v6_real (hx : PooledSpec.IsReal x0) (hq : PooledSpec.IsReal x1) (j : S8x256.Idx) :
    ∃ Mx : ℝ, val_main_v6 (F := Ideal) x0 x1 j = (Mx : EReal) := by
  have hy := v3_isReal x0 x1 hx hq
  rw [val_main_v6_apply, val_main_v5_apply, val_main_cst_1_apply, Ideal.maximumf_def, Ideal.ofBits_def, ofBits_neg_inf,
    max_eq_right bot_le]
  unfold val_main_v4
  generalize val_main_v3 (F := Ideal) x0 x1 = y at hy ⊢
  have h : S8x256x32768.Reduces [2] S8x256 := by decide
  have e := Host.reduce_eq_fold_single (FloatOps.maximumf (F := Ideal) (φ := .f32)) y (val_main_cst_0 (F := Ideal))
    reducesTo_S8x256x32768_S8x256_d2 h h_S_ j
  have hf : y ∘ h.lift j = fun k => (((y (h.lift j k)).toReal : ℝ) : EReal) := funext fun k => hy _
  rw [hf] at e
  have hb : (val_main_cst_0 (F := Ideal)) (Shape.Idx.first h_S_) ≠ (⊤ : EReal) := by
    rw [val_main_cst_0_apply, Ideal.ofBits_def, ofBits_neg_inf]
    exact bot_ne_top
  obtain ⟨r, hr⟩ := StreamedSoftmax.fold_max_real (S := Finset.univ) ⟨⟨0, by decide⟩, Finset.mem_univ _⟩
    (fun k => (y (h.lift j k)).toReal) hb
  exact ⟨r, e.trans hr⟩

/-- The weight at `(b, s, n)`: the exponential of the logit less the row's maximum. -/
theorem v10_at (b : Fin 8) (s : Fin 256) (n : Fin 32768) :
    val_main_v10 (F := Ideal) x0 x1 (ix3 b s n)
      = Ideal.exp (val_main_v3 (F := Ideal) x0 x1 (ix3 b s n) - val_main_v6 (F := Ideal) x0 x1 (ix2 b s)) := by
  rw [val_main_v10_apply, val_main_v9_apply, val_main_v8_apply, val_main_v7_apply, Ideal.hostUnary_exp_def, Ideal.subf_def]
  have e : idx_main_v7 (idx_main_v8 (ix3 b s n)) = ix2 b s := funext fun a => by
    match a with | ⟨0, _⟩ => rfl | ⟨1, _⟩ => rfl
  rw [e]

/-- The weights' sum at `(b, s)`, taken from `0`. -/
theorem v11_at (b : Fin 8) (s : Fin 256) :
    val_main_v11 (F := Ideal) x0 x1 (ix2 b s) = 0 + ∑ n : Fin 32768, val_main_v10 (F := Ideal) x0 x1 (ix3 b s n) := by
  rw [val_main_v11_apply, val_main_cst_2_apply, Ideal.ofBits_def, Ideal.ofBits_zero_f32]
  refine congrArg (0 + ·) (Finset.sum_congr rfl fun k _ => ?_)
  exact congrArg _ (funext fun a => by match a with | ⟨0, _⟩ => rfl | ⟨1, _⟩ => rfl | ⟨2, _⟩ => rfl)

/-- The normalized weight at `(b, s, n)`. -/
theorem v14_at (b : Fin 8) (s : Fin 256) (n : Fin 32768) :
    val_main_v14 (F := Ideal) x0 x1 (ix3 b s n)
      = Ideal.div (val_main_v10 (F := Ideal) x0 x1 (ix3 b s n)) (val_main_v11 (F := Ideal) x0 x1 (ix2 b s)) := by
  rw [val_main_v14_apply, val_main_v13_apply, val_main_v12_apply, Ideal.hostDivf_def]
  have e : idx_main_v12 (idx_main_v13 (ix3 b s n)) = ix2 b s := funext fun a => by
    match a with | ⟨0, _⟩ => rfl | ⟨1, _⟩ => rfl
  rw [e]

end Stages

/-- On real-valued arguments the reference's result array is the specification's. -/
theorem ref_is_pooled (x0 : (⟨S8x32768x512, .f32⟩ : BufTy).Contents (Elt Ideal)) (x1 : (⟨S256x512, .f32⟩ : BufTy).Contents (Elt Ideal))
    (hx : PooledSpec.IsReal x0) (hq : PooledSpec.IsReal x1) :
    val_main_v15 (F := Ideal) x0 x1 = PooledSpec.G x0 x1 := by
  funext i
  obtain ⟨b, s, c, rfl⟩ : ∃ (b : Fin 8) (s : Fin 256) (c : Fin 512), i = ix3 b s c := ⟨i 0, i 1, i 2, eq_ix3 i⟩
  rw [PooledSpec.G_apply]
  obtain ⟨Mx, hMx⟩ := v6_real x0 x1 hx hq (ix2 b s)
  unfold PooledSpec.pooled
  rw [val_main_v15_apply]
  refine Eq.trans (Finset.sum_congr rfl fun k _ => ?_)
    (row_value ⟨⟨0, by decide⟩, Finset.mem_univ _⟩
      (PooledSpec.logit (fun j => (x0 j).toReal) (fun j => (x1 j).toReal) b s)
      (fun n => (x0 (ix3 b n c)).toReal) Mx
      (fun n => val_main_v10 (F := Ideal) x0 x1 (ix3 b s n)) (val_main_v11 (F := Ideal) x0 x1 (ix2 b s))
      (fun n => by rw [v10_at, v3_at x0 x1 hx hq, hMx]) (v11_at x0 x1 b s))
  have el : lidx_main_v15 (ix3 b s c) k = ix3 b s k := funext fun a => by
    match a with | ⟨0, _⟩ => rfl | ⟨1, _⟩ => rfl | ⟨2, _⟩ => rfl
  have er : ridx_main_v15 (ix3 b s c) k = ix3 b k c := funext fun a => by
    match a with | ⟨0, _⟩ => rfl | ⟨1, _⟩ => rfl | ⟨2, _⟩ => rfl
  show val_main_v14 (F := Ideal) x0 x1 (lidx_main_v15 (ix3 b s c) k) * x0 (ridx_main_v15 (ix3 b s c) k)
    = Ideal.div (val_main_v10 (F := Ideal) x0 x1 (ix3 b s k)) (val_main_v11 (F := Ideal) x0 x1 (ix2 b s))
        * (((x0 (ix3 b k c)).toReal : ℝ) : EReal)
  rw [el, er, v14_at, ← hx (ix3 b k c)]

end Cert.ReferenceIdeal.RefValue

end
-- ==== Proof.FiniteInputs.lean ====
/-
  From the precondition to real-valued arguments: `finite_inputs` says that every entry of both arrays has
  absolute value below +∞, so every entry is a real number.

  The printed predicate is, for each array, the conjunction over all of its indices of the bit `|x i| < +∞`
  (a reduction by `and` over every axis, started at 1), and the two results joined by `and`. A conjunction
  that is 1 had only 1s, so the bit is 1 at every index of both arrays. Over the extended reals the absolute
  value is `max a (-a)` and the word `0x7F800000` denotes +∞ (exponent field all ones, mantissa zero).
  Of the three kinds of extended real, -∞ and +∞ both have `max a (-a) = +∞`, which is not below +∞;
  what remains is a real number, and a real number is the coercion of its own real part.
-/
import proofs.«115058_g30648886624911_feedfinal_492_2_alg».proof.Pre_finite_inputs
import proofs.«115058_g30648886624911_feedfinal_492_2_alg».proof.Proof.Gen.Pre_finite_inputs
import proofs.«115058_g30648886624911_feedfinal_492_2_alg».proof.Proof.PooledSpec
import Idealize.ShloMosaic.Lib.ReduceAll

noncomputable section

namespace Cert.Pre_finite_inputs.Finite

open Cert.Pre_finite_inputs Idealize.ShloMosaic Idealize.ShloMosaic.ValueIdx

/-- The word `0x7F800000` denotes +∞. -/
theorem inf_word : Ideal.ofBits .f32 0x7F800000#32 = (⊤ : EReal) := by
  simp [Ideal.ofBits, Ideal.ieee]

/-- An extended real whose absolute value `max a (-a)` lies below +∞ is a real number:
    at -∞ and at +∞ the maximum is +∞. -/
theorem real_of_abs_lt_top (a : EReal) (h : max a (-a) < ⊤) : a = ((a.toReal : ℝ) : EReal) := by
  induction a using EReal.rec with
  | bot => simp at h
  | coe r => rw [EReal.toReal_coe]
  | top => simp at h

/-- The comparison `|a| < +∞` answering 1 says that `a` is a real number. -/
theorem real_of_cmp (a : EReal)
    (h : Ideal.cmp .olt (max a (-a)) (Ideal.ofBits .f32 0x7F800000#32) = 1#1) : a = ((a.toReal : ℝ) : EReal) := by
  refine real_of_abs_lt_top a ?_
  by_contra hn
  rw [inf_word] at h
  simp [Ideal.cmp, hn] at h

/-- The rank-0 shape has one index: a reduction over all axes lands in a single cell. -/
instance subsingleton_scalarIdx : Subsingleton S_.Idx := ⟨fun a b => funext fun d => d.elim0⟩

/-- If the printed precondition evaluates to all ones, both arrays are real-valued. -/
theorem real_of_pre (x0 : FVec Ideal S8x32768x512 .f32) (x1 : FVec Ideal S256x512 .f32)
    (h : Cert.Pre_finite_inputs.fn (F := Ideal) x0 x1 = (fun _ => 1#1)) :
    PooledSpec.IsReal x0 ∧ PooledSpec.IsReal x1 := by
  -- the one cell of the result, with the printed chain in view
  have h0 := congrFun h ValueIdx.ix0
  dsimp only [fn] at h0
  -- the two arrays' conjunctions are both 1
  obtain ⟨ha, hb⟩ := IntOp.andi_eq_one.1 h0
  -- so the bit is 1 at every index, and the entry there is real
  refine ⟨fun i => ?_, fun i => ?_⟩
  · exact real_of_cmp (x0 i) (Host.reduce_andi_all _ _ _ _ _ ha i)
  · exact real_of_cmp (x1 i) (Host.reduce_andi_all _ _ _ _ _ hb i)

end Cert.Pre_finite_inputs.Finite

end
-- ==== Proof.lean ====
/-
  The certificate of a streamed softmax pooler against its two-pass reference.

  The kernel computes, for each batch `b`, query `s` and channel `c`, the softmax average over the 32768 rows `n` of
  `x[b, n, c]` under the logits `(q[s, ·] * scale) · x[b, n, ·]`, streaming the rows in 16 chunks of 2048 with a running
  maximum, a running weight sum and a running weighted sum, each re-shifted when the maximum moves; the reference computes
  the logits as `(x[b, n, ·] · q[s, ·]) * scale`, subtracts the row maximum, exponentiates, normalizes, and contracts with
  `x`. Over the reals the shift cancels in the quotient, so both are the same function `PooledSpec.G` of the arguments:
  the kernel's by an induction over the grid points on the streamed state (`Cert.KernelIdeal.KernelValue.run`), the
  reference's operation by operation (`Cert.ReferenceIdeal.RefValue.ref_is_pooled`). The law needs the entries to be real
  numbers (sums distribute over products, and the exponentials are positive and finite), which the precondition gives
  (`Cert.Pre_finite_inputs.Finite.real_of_pre`). The kernel's running maximum starts from a finite negative word rather
  than -∞; at exact arithmetic any real shift gives the same quotient, so its value is never used.
  The three frames are the generated ones (the reference's is its generated run with the result dropped); the ideal pass
  rewrote nothing, so `preserves` is `True`.
-/
import proofs.«115058_g30648886624911_feedfinal_492_2_alg».proof.Defs
import proofs.«115058_g30648886624911_feedfinal_492_2_alg».proof.Proof.Gen.Kernel
import proofs.«115058_g30648886624911_feedfinal_492_2_alg».proof.Proof.Gen.Kernel.Skeleton
import proofs.«115058_g30648886624911_feedfinal_492_2_alg».proof.Proof.Gen.Kernel.Launch
import proofs.«115058_g30648886624911_feedfinal_492_2_alg».proof.Proof.Gen.Kernel.Points
import proofs.«115058_g30648886624911_feedfinal_492_2_alg».proof.Proof.Gen.Kernel.Frame
import proofs.«115058_g30648886624911_feedfinal_492_2_alg».proof.Proof.Gen.KernelIdeal
import proofs.«115058_g30648886624911_feedfinal_492_2_alg».proof.Proof.Gen.KernelIdeal.Skeleton
import proofs.«115058_g30648886624911_feedfinal_492_2_alg».proof.Proof.Gen.KernelIdeal.Launch
import proofs.«115058_g30648886624911_feedfinal_492_2_alg».proof.Proof.Gen.KernelIdeal.Points
import proofs.«115058_g30648886624911_feedfinal_492_2_alg».proof.Proof.Gen.KernelIdeal.Frame
import proofs.«115058_g30648886624911_feedfinal_492_2_alg».proof.Proof.Gen.ReferenceIdeal
import proofs.«115058_g30648886624911_feedfinal_492_2_alg».proof.Proof.Gen.Pre_finite_inputs
import proofs.«115058_g30648886624911_feedfinal_492_2_alg».proof.Proof.Gen.KernelIdeal.Value
import proofs.«115058_g30648886624911_feedfinal_492_2_alg».proof.Proof.Gen.ReferenceIdeal.Run
import proofs.«115058_g30648886624911_feedfinal_492_2_alg».proof.Proof.Gen.ReferenceIdeal.Read
import proofs.«115058_g30648886624911_feedfinal_492_2_alg».proof.Proof.KernelValue
import proofs.«115058_g30648886624911_feedfinal_492_2_alg».proof.Proof.RefValue
import proofs.«115058_g30648886624911_feedfinal_492_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on real-valued arguments both programs end at the specification. -/
theorem algebraic : Cert.algebraic_KernelIdeal_ReferenceIdeal := by
  intro m ρ m' ρ' hpre hagree
  have hreal : ∀ c, PooledSpec.IsReal (Cert.KernelIdeal.Blocks.xarr m c) ∧ PooledSpec.IsReal (Cert.KernelIdeal.Blocks.qarr m c) :=
    fun c => Cert.Pre_finite_inputs.Finite.real_of_pre _ _ (hpre c)
  refine ⟨fun c => PooledSpec.G (Cert.KernelIdeal.Blocks.xarr m c) (Cert.KernelIdeal.Blocks.qarr m c),
    Cert.KernelIdeal.KernelValue.run m ρ hreal, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v15_eq _ _).trans
    (Cert.ReferenceIdeal.RefValue.ref_is_pooled _ _ (hreal c).1 (hreal c).2)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
